-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50 : Shape := ⟨2, ![2048, 50]⟩
abbrev S2000000 : Shape := ⟨1, ![2000000]⟩
abbrev S512x2048 : Shape := ⟨2, ![512, 2048]⟩
abbrev S2048x2048 : Shape := ⟨2, ![2048, 2048]⟩
abbrev S2048x1000 : Shape := ⟨2, ![2048, 1000]⟩
abbrev S_ : Shape := ⟨0, ![]⟩

class Facts : Prop where
  bcast_S_S2048x50 : S_.BroadcastsInDim S2048x50 (![] : Fin 0 → Fin S2048x50.rank)
  reducesTo_S2048x50_S_d0_1 : S2048x50.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : IVec S2048x50 32) (main_arg1 : FVec F S2048x50 .f32) (main_arg2 : FVec F S2000000 .f32) (main_arg3 : IVec S512x2048 32) (main_arg4 : IVec S2048x2048 32) (main_arg5 : IVec S2048x1000 32) : IVec S_ 1 :=
  let main_v0 : FVec F S2048x50 .f32 := Host.absf main_arg1
  let main_cst : FVec F S_ .f32 := constant S_ .f32 0x7F800000#32
  let main_v1 : FVec F S2048x50 .f32 := broadcastInDim S2048x50 ![] bcast_S_S2048x50 main_cst
  let main_v2 : IVec S2048x50 1 := cmpf .olt main_v0 main_v1
  let main_c : IVec S_ 1 := constantI S_ 1 1#1
  let main_v3 : IVec S_ 1 := (fun x v => Host.reduce IntOp.andi x v reducesTo_S2048x50_S_d0_1 h_S_) main_v2 main_c
  let main_v4 : FVec F S2000000 .f32 := Host.absf main_arg2
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  main_v8
-- ==== Kernel.lean ====
abbrev S2048x50 : Shape := ⟨2, ![2048, 50]⟩
abbrev S2000000 : Shape := ⟨1, ![2000000]⟩
abbrev S512x2048 : Shape := ⟨2, ![512, 2048]⟩
abbrev S2048x2048 : Shape := ⟨2, ![2048, 2048]⟩
abbrev S2048x1000 : Shape := ⟨2, ![2048, 1000]⟩
abbrev S16 : Shape := ⟨1, ![16]⟩
abbrev S2048x50x1 : Shape := ⟨3, ![2048, 50, 1]⟩
abbrev S_ : Shape := ⟨0, ![]⟩
abbrev S1x1x16 : Shape := ⟨3, ![1, 1, 16]⟩
abbrev S2048x50x16 : Shape := ⟨3, ![2048, 50, 16]⟩
abbrev S2048x50x16x1 : Shape := ⟨4, ![2048, 50, 16, 1]⟩
abbrev S32 : Shape := ⟨1, ![32]⟩
abbrev S1x1x1x32 : Shape := ⟨4, ![1, 1, 1, 32]⟩
abbrev S2048x50x16x32 : Shape := ⟨4, ![2048, 50, 16, 32]⟩
abbrev S2048x50x16x32x1 : Shape := ⟨5, ![2048, 50, 16, 32, 1]⟩
abbrev S2048x50x512 : Shape := ⟨3, ![2048, 50, 512]⟩
abbrev S2048x512 : Shape := ⟨2, ![2048, 512]⟩
abbrev S128x50x512 : Shape := ⟨3, ![128, 50, 512]⟩
abbrev S128x50 : Shape := ⟨2, ![128, 50]⟩
abbrev S128x512 : Shape := ⟨2, ![128, 512]⟩
abbrev S128x50x1 : Shape := ⟨3, ![128, 50, 1]⟩
abbrev S512x2048x1 : Shape := ⟨3, ![512, 2048, 1]⟩
abbrev S2048x2048x1 : Shape := ⟨3, ![2048, 2048, 1]⟩
abbrev S2048x1000x1 : Shape := ⟨3, ![2048, 1000, 1]⟩
abbrev S2048x1024 : Shape := ⟨2, ![2048, 1024]⟩
abbrev S256x512 : Shape := ⟨2, ![256, 512]⟩
abbrev S256x1024 : Shape := ⟨2, ![256, 1024]⟩
abbrev S256x2048 : Shape := ⟨2, ![256, 2048]⟩

abbrev nBuf : Space → Nat
  | .hbm => 127
  | .vmem => 13
  | .smem => 0
  | _ => 0

abbrev bufTy : (tb : Table) → Fin (tcTables nBuf tb) → BufTy
  | .hbm, ⟨0, _⟩ => ⟨S2048x50, .i32⟩
  | .hbm, ⟨1, _⟩ => ⟨S2048x50, .f32⟩
  | .hbm, ⟨2, _⟩ => ⟨S2000000, .f32⟩
  | .hbm, ⟨3, _⟩ => ⟨S512x2048, .i32⟩
  | .hbm, ⟨4, _⟩ => ⟨S2048x2048, .i32⟩
  | .hbm, ⟨5, _⟩ => ⟨S2048x1000, .i32⟩
  | .hbm, ⟨6, _⟩ => ⟨S16, .i32⟩
  | .hbm, ⟨7, _⟩ => ⟨S2048x50x1, .i32⟩
  | .hbm, ⟨8, _⟩ => ⟨S_, .i32⟩
  | .hbm, ⟨9, _⟩ => ⟨S2048x50x1, .i32⟩
  | .hbm, ⟨10, _⟩ => ⟨S2048x50x1, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S1x1x16, .i32⟩
  | .hbm, ⟨15, _⟩ => ⟨S2048x50x16, .i32⟩
  | .hbm, ⟨16, _⟩ => ⟨S2048x50x16, .i32⟩
  | .hbm, ⟨17, _⟩ => ⟨S2048x50x16, .i32⟩
  | .hbm, ⟨18, _⟩ => ⟨S_, .i32⟩
  | .hbm, ⟨19, _⟩ => ⟨S2048x50x16, .i32⟩
  | .hbm, ⟨20, _⟩ => ⟨S2048x50x16, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S2048x50x16, .i32⟩
  | .hbm, ⟨28, _⟩ => ⟨S2048x50x16, .i32⟩
  | .hbm, ⟨29, _⟩ => ⟨S_, .i32⟩
  | .hbm, ⟨30, _⟩ => ⟨S2048x50x16, .i32⟩
  | .hbm, ⟨31, _⟩ => ⟨S2048x50x16, .i1⟩
  | .hbm, ⟨32, _⟩ => ⟨S_, .i32⟩
  | .hbm, ⟨33, _⟩ => ⟨S2048x50x16, .i32⟩
  | .hbm, ⟨34, _⟩ => ⟨S2048x50x16, .i1⟩
  | .hbm, ⟨35, _⟩ => ⟨S_, .i32⟩
  | .hbm, ⟨36, _⟩ => ⟨S_, .i1⟩
  | .hbm, ⟨37, _⟩ => ⟨S2048x50x16, .i1⟩
  | .hbm, ⟨38, _⟩ => ⟨S2048x50x16, .i1⟩
  | .hbm, ⟨39, _⟩ => ⟨S2048x50x16, .i1⟩
  | .hbm, ⟨40, _⟩ => ⟨S2048x50x16, .i32⟩
  | .hbm, ⟨41, _⟩ => ⟨S2048x50x16, .i32⟩
  | .hbm, ⟨42, _⟩ => ⟨S2048x50x16, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S2048x50x16, .i32⟩
  | .hbm, ⟨50, _⟩ => ⟨S2048x50x16, .i32⟩
  | .hbm, ⟨51, _⟩ => ⟨S_, .i32⟩
  | .hbm, ⟨52, _⟩ => ⟨S2048x50x16, .i32⟩
  | .hbm, ⟨53, _⟩ => ⟨S2048x50x16, .i1⟩
  | .hbm, ⟨54, _⟩ => ⟨S_, .i32⟩
  | .hbm, ⟨55, _⟩ => ⟨S2048x50x16, .i32⟩
  | .hbm, ⟨56, _⟩ => ⟨S2048x50x16, .i1⟩
  | .hbm, ⟨57, _⟩ => ⟨S_, .i32⟩
  | .hbm, ⟨58, _⟩ => ⟨S_, .i1⟩
  | .hbm, ⟨59, _⟩ => ⟨S2048x50x16, .i1⟩
  | .hbm, ⟨60, _⟩ => ⟨S2048x50x16, .i1⟩
  | .hbm, ⟨61, _⟩ => ⟨S2048x50x16, .i1⟩
  | .hbm, ⟨62, _⟩ => ⟨S2048x50x16, .i32⟩
  | .hbm, ⟨63, _⟩ => ⟨S2048x50x16, .i32⟩
  | .hbm, ⟨64, _⟩ => ⟨S2048x50x16, .i32⟩
  | .hbm, ⟨65, _⟩ => ⟨S2048x50x16x1, .i32⟩
  | .hbm, ⟨66, _⟩ => ⟨S32, .i32⟩
  | .hbm, ⟨67, _⟩ => ⟨S1x1x1x32, .i32⟩
  | .hbm, ⟨68, _⟩ => ⟨S2048x50x16x32, .i32⟩
  | .hbm, ⟨69, _⟩ => ⟨S2048x50x16x32, .i32⟩
  | .hbm, ⟨70, _⟩ => ⟨S2048x50x16x32, .i32⟩
  | .hbm, ⟨71, _⟩ => ⟨S_, .i32⟩
  | .hbm, ⟨72, _⟩ => ⟨S2048x50x16x32, .i32⟩
  | .hbm, ⟨73, _⟩ => ⟨S2048x50x16x32, .i1⟩
  | .hbm, ⟨74, _⟩ => ⟨S_, .i32⟩
  | .hbm, ⟨75, _⟩ => ⟨S2048x50x16x32, .i32⟩
  | .hbm, ⟨76, _⟩ => ⟨S2048x50x16x32, .i32⟩
  | .hbm, ⟨77, _⟩ => ⟨S2048x50x16x32, .i32⟩
  | .hbm, ⟨78, _⟩ => ⟨S2048x50x16x32x1, .i32⟩
  | .hbm, ⟨79, _⟩ => ⟨S2048x50x16x32, .f32⟩
  | .hbm, ⟨80, _⟩ => ⟨S2048x50x512, .f32⟩
  | .hbm, ⟨81, _⟩ => ⟨S_, .i32⟩
  | .hbm, ⟨82, _⟩ => ⟨S2048x50, .i32⟩
  | .hbm, ⟨83, _⟩ => ⟨S2048x50, .i1⟩
  | .hbm, ⟨84, _⟩ => ⟨S2048x50x1, .i1⟩
  | .hbm, ⟨85, _⟩ => ⟨S_, .f32⟩
  | .hbm, ⟨86, _⟩ => ⟨S_, .f32⟩
  | .hbm, ⟨87, _⟩ => ⟨S2048x50x512, .i1⟩
  | .hbm, ⟨88, _⟩ => ⟨S2048x50x512, .f32⟩
  | .hbm, ⟨89, _⟩ => ⟨S2048x50x512, .f32⟩
  | .hbm, ⟨90, _⟩ => ⟨S2048x512, .f32⟩
  | .hbm, ⟨91, _⟩ => ⟨S_, .i32⟩
  | .hbm, ⟨92, _⟩ => ⟨S512x2048, .i32⟩
  | .hbm, ⟨93, _⟩ => ⟨S512x2048, .i1⟩
  | .hbm, ⟨94, _⟩ => ⟨S_, .i32⟩
  | .hbm, ⟨95, _⟩ => ⟨S512x2048, .i32⟩
  | .hbm, ⟨96, _⟩ => ⟨S512x2048, .i32⟩
  | .hbm, ⟨97, _⟩ => ⟨S512x2048, .i32⟩
  | .hbm, ⟨98, _⟩ => ⟨S512x2048x1, .i32⟩
  | .hbm, ⟨99, _⟩ => ⟨S512x2048, .f32⟩
  | .hbm, ⟨100, _⟩ => ⟨S_, .i32⟩
  | .hbm, ⟨101, _⟩ => ⟨S2048x2048, .i32⟩
  | .hbm, ⟨102, _⟩ => ⟨S2048x2048, .i1⟩
  | .hbm, ⟨103, _⟩ => ⟨S_, .i32⟩
  | .hbm, ⟨104, _⟩ => ⟨S2048x2048, .i32⟩
  | .hbm, ⟨105, _⟩ => ⟨S2048x2048, .i32⟩
  | .hbm, ⟨106, _⟩ => ⟨S2048x2048, .i32⟩
  | .hbm, ⟨107, _⟩ => ⟨S2048x2048x1, .i32⟩
  | .hbm, ⟨108, _⟩ => ⟨S2048x2048, .f32⟩
  | .hbm, ⟨109, _⟩ => ⟨S_, .i32⟩
  | .hbm, ⟨110, _⟩ => ⟨S2048x1000, .i32⟩
  | .hbm, ⟨111, _⟩ => ⟨S2048x1000, .i1⟩
  | .hbm, ⟨112, _⟩ => ⟨S_, .i32⟩
  | .hbm, ⟨113, _⟩ => ⟨S2048x1000, .i32⟩
  | .hbm, ⟨114, _⟩ => ⟨S2048x1000, .i32⟩
  | .hbm, ⟨115, _⟩ => ⟨S2048x1000, .i32⟩
  | .hbm, ⟨116, _⟩ => ⟨S2048x1000x1, .i32⟩
  | .hbm, ⟨117, _⟩ => ⟨S2048x1000, .f32⟩
  | .hbm, ⟨118, _⟩ => ⟨S_, .i32⟩
  | .hbm, ⟨119, _⟩ => ⟨S_, .f32⟩
  | .hbm, ⟨120, _⟩ => ⟨S2048x1024, .f32⟩
  | .hbm, ⟨121, _⟩ => ⟨S2048x512, .bf16⟩
  | .hbm, ⟨122, _⟩ => ⟨S512x2048, .bf16⟩
  | .hbm, ⟨123, _⟩ => ⟨S2048x2048, .bf16⟩
  | .hbm, ⟨124, _⟩ => ⟨S2048x1024, .bf16⟩
  | .hbm, ⟨125, _⟩ => ⟨S2048x1024, .f32⟩
  | .hbm, ⟨126, _⟩ => ⟨S2048x1000, .f32⟩
  | .local _ .vmem, ⟨0, _⟩ => ⟨S128x50x512, .f32⟩
  | .local _ .vmem, ⟨1, _⟩ => ⟨S128x50x512, .f32⟩
  | .local _ .vmem, ⟨2, _⟩ => ⟨S128x50, .f32⟩
  | .local _ .vmem, ⟨3, _⟩ => ⟨S128x50, .f32⟩
  | .local _ .vmem, ⟨4, _⟩ => ⟨S128x512, .f32⟩
  | .local _ .vmem, ⟨5, _⟩ => ⟨S128x512, .f32⟩
  | .local _ .vmem, ⟨6, _⟩ => ⟨S256x512, .bf16⟩
  | .local _ .vmem, ⟨7, _⟩ => ⟨S256x512, .bf16⟩
  | .local _ .vmem, ⟨8, _⟩ => ⟨S512x2048, .bf16⟩
  | .local _ .vmem, ⟨9, _⟩ => ⟨S2048x2048, .bf16⟩
  | .local _ .vmem, ⟨10, _⟩ => ⟨S2048x1024, .bf16⟩
  | .local _ .vmem, ⟨11, _⟩ => ⟨S256x1024, .f32⟩
  | .local _ .vmem, ⟨12, _⟩ => ⟨S256x1024, .f32⟩
  | _, _ => ⟨S2048x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v12 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_c_4 : Ref sig .tc := ⟨.hbm, 71, rfl⟩
abbrev main_v20 : Ref sig .tc := ⟨.hbm, 72, rfl⟩
abbrev main_v21 : Ref sig .tc := ⟨.hbm, 73, rfl⟩
abbrev main_c_5 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_c_6 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v31 : Ref sig .tc := ⟨.hbm, 89, rfl⟩
abbrev main_v32 : Ref sig .tc := ⟨.hbm, 90, rfl⟩
abbrev main_c_7 : Ref sig .tc := ⟨.hbm, 91, rfl⟩
abbrev main_v33 : Ref sig .tc := ⟨.hbm, 92, rfl⟩
abbrev main_v34 : Ref sig .tc := ⟨.hbm, 93, rfl⟩
abbrev main_c_8 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_c_9 : Ref sig .tc := ⟨.hbm, 100, rfl⟩
abbrev main_v40 : Ref sig .tc := ⟨.hbm, 101, rfl⟩
abbrev main_v41 : Ref sig .tc := ⟨.hbm, 102, rfl⟩
abbrev main_c_10 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_c_11 : Ref sig .tc := ⟨.hbm, 109, rfl⟩
abbrev main_v47 : Ref sig .tc := ⟨.hbm, 110, rfl⟩
abbrev main_v48 : Ref sig .tc := ⟨.hbm, 111, rfl⟩
abbrev main_c_12 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_c_13 : Ref sig .tc := ⟨.hbm, 118, rfl⟩
abbrev main_call3_v0 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x50x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S2048x50_S2048x50x1_0_1 : S2048x50.BroadcastsInDim S2048x50x1 (![0, 1] : Fin 2 → Fin S2048x50x1.rank)
  bcast_S_S2048x50x1 : S_.BroadcastsInDim S2048x50x1 (![] : Fin 0 → Fin S2048x50x1.rank)
  bcast_S_S16 : S_.BroadcastsInDim S16 (![] : Fin 0 → Fin S16.rank)
  bcast_S16_S1x1x16_2 : S16.BroadcastsInDim S1x1x16 (![2] : Fin 1 → Fin S1x1x16.rank)
  bcast_S2048x50x1_S2048x50x16_0_1_2 : S2048x50x1.BroadcastsInDim S2048x50x16 (![0, 1, 2] : Fin 3 → Fin S2048x50x16.rank)
  bcast_S1x1x16_S2048x50x16_0_1_2 : S1x1x16.BroadcastsInDim S2048x50x16 (![0, 1, 2] : Fin 3 → Fin S2048x50x16.rank)
  bcast_S_S2048x50x16 : S_.BroadcastsInDim S2048x50x16 (![] : Fin 0 → Fin S2048x50x16.rank)
  bcast_S2048x50x16_S2048x50x16x1_0_1_2 : S2048x50x16.BroadcastsInDim S2048x50x16x1 (![0, 1, 2] : Fin 3 → Fin S2048x50x16x1.rank)
  bcast_S32_S1x1x1x32_3 : S32.BroadcastsInDim S1x1x1x32 (![3] : Fin 1 → Fin S1x1x1x32.rank)
  bcast_S2048x50x16x1_S2048x50x16x32_0_1_2_3 : S2048x50x16x1.BroadcastsInDim S2048x50x16x32 (![0, 1, 2, 3] : Fin 4 → Fin S2048x50x16x32.rank)
  bcast_S1x1x1x32_S2048x50x16x32_0_1_2_3 : S1x1x1x32.BroadcastsInDim S2048x50x16x32 (![0, 1, 2, 3] : Fin 4 → Fin S2048x50x16x32.rank)
  bcast_S_S2048x50x16x32 : S_.BroadcastsInDim S2048x50x16x32 (![] : Fin 0 → Fin S2048x50x16x32.rank)
  bcast_S2048x50x16x32_S2048x50x16x32x1_0_1_2_3 : S2048x50x16x32.BroadcastsInDim S2048x50x16x32x1 (![0, 1, 2, 3] : Fin 4 → Fin S2048x50x16x32x1.rank)
  shapeCasts_S2048x50x16x32_S2048x50x512 : S2048x50x16x32.ShapeCasts S2048x50x512
  bcast_S_S2048x50 : S_.BroadcastsInDim S2048x50 (![] : Fin 0 → Fin S2048x50.rank)
  bcast_S2048x50x1_S2048x50x512_0_1_2 : S2048x50x1.BroadcastsInDim S2048x50x512 (![0, 1, 2] : Fin 3 → Fin S2048x50x512.rank)
  bcast_S_S2048x50x512 : S_.BroadcastsInDim S2048x50x512 (![] : Fin 0 → Fin S2048x50x512.rank)
  inb_S128x50x512_S128x50x512_0_0_0 : ∀ a, (![0, 0, 0] : Fin 3 → Nat) a + S128x50x512.size a ≤ S128x50x512.size a
  h_S128x50x512 : 0 < S128x50x512.numel
  shapeCasts_S128x50x512_S128x50x512 : S128x50x512.ShapeCasts S128x50x512
  inb_S128x50_S128x50_0_0 : ∀ a, (![0, 0] : Fin 2 → Nat) a + S128x50.size a ≤ S128x50.size a
  h_S128x50 : 0 < S128x50.numel
  shapeCasts_S128x50_S128x50x1 : S128x50.ShapeCasts S128x50x1
  broadcasts_S128x50x1_S128x50x512 : S128x50x1.Broadcasts S128x50x512
  reduces_S128x50x512_S128x512 : S128x50x512.Reduces [1] S128x512
  inb_S128x512_S128x512_0_0 : ∀ a, (![0, 0] : Fin 2 → Nat) a + S128x512.size a ≤ S128x512.size a
  h_S128x512 : 0 < S128x512.numel
  bcast_S_S512x2048 : S_.BroadcastsInDim S512x2048 (![] : Fin 0 → Fin S512x2048.rank)
  bcast_S512x2048_S512x2048x1_0_1 : S512x2048.BroadcastsInDim S512x2048x1 (![0, 1] : Fin 2 → Fin S512x2048x1.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S_S2048x1000 : S_.BroadcastsInDim S2048x1000 (![] : Fin 0 → Fin S2048x1000.rank)
  bcast_S2048x1000_S2048x1000x1_0_1 : S2048x1000.BroadcastsInDim S2048x1000x1 (![0, 1] : Fin 2 → Fin S2048x1000x1.rank)
  pads_S2048x1000_S2048x1024_000_0240 : S2048x1000.Pads (![0, 0] : Fin 2 → Nat) ![0, 24] ![0, 0] S2048x1024
  h_S_ : 0 < S_.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  slices_S2048x1024_S2048x1000_0_0 : S2048x1024.Slices ![0, 0] S2048x1000
  gather_S2000000_S2048x50x16x32x1_S2048x50x16x32_n_0_n_n_0_4_1_wf : GatherDims.WF S2000000 S2048x50x16x32x1 S2048x50x16x32 [] [0] [] [0] [] 4 ![1]
  gather_S2000000_S512x2048x1_S512x2048_n_0_n_n_0_2_1_wf : GatherDims.WF S2000000 S512x2048x1 S512x2048 [] [0] [] [0] [] 2 ![1]
  gather_S2000000_S2048x2048x1_S2048x2048_n_0_n_n_0_2_1_wf : GatherDims.WF S2000000 S2048x2048x1 S2048x2048 [] [0] [] [0] [] 2 ![1]
  gather_S2000000_S2048x1000x1_S2048x1000_n_0_n_n_0_2_1_wf : GatherDims.WF S2000000 S2048x1000x1 S2048x1000 [] [0] [] [0] [] 2 ![1]
  dot_S256x512_S512x2048_S256x2048_1_0_0_1_n_n_wf : DotDims.WF S256x512 S512x2048 S256x2048 [1] [0] [0] [1] [] []
  dot_S256x2048_S2048x2048_S256x2048_1_0_0_1_n_n_wf : DotDims.WF S256x2048 S2048x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50x512.size a ≤ S2048x50x512.size a
  hwx0_0 : ∀ i : grid0.Coords, EltTy.bits .f32 = 32 ∨ (Rect.block (s := S2048x50x512) S128x50x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S2048x50.size a
  hwx0_1 : ∀ i : grid0.Coords, EltTy.bits .f32 = 32 ∨ (Rect.block (s := S2048x50) S128x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S2048x512.size a
  hwx0_2 : ∀ i : grid0.Coords, EltTy.bits .f32 = 32 ∨ (Rect.block (s := S2048x512) S128x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S2048x512.size a
  hwx1_0 : ∀ i : grid1.Coords, EltTy.bits .bf16 = 32 ∨ (Rect.block (s := S2048x512) S256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .bf16 = 32 ∨ (Rect.block (s := S512x2048) S512x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S2048x1024.size a
  hwx1_3 : ∀ i : grid1.Coords, EltTy.bits .bf16 = 32 ∨ (Rect.block (s := S2048x1024) S2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S2048x1024.size a
  hwx1_4 : ∀ i : grid1.Coords, EltTy.bits .f32 = 32 ∨ (Rect.block (s := S2048x1024) S256x1024.size (cc1_transform_4 i) (hinb1_4 i)).WholeWords (EltTy.packing .f32)

variable [Facts₀]

def gather_S2000000_S2048x50x16x32x1_S2048x50x16x32_n_0_n_n_0_4_1 : GatherDims S2000000 S2048x50x16x32x1 S2048x50x16x32 where
  offsetDims := []
  collapsedSliceDims := [0]
  operandBatchingDims := []
  startIndicesBatchingDims := []
  startIndexMap := [0]
  indexVectorDim := 4
  sliceSizes := ![1]
  wf := gather_S2000000_S2048x50x16x32x1_S2048x50x16x32_n_0_n_n_0_4_1_wf
def gather_S2000000_S512x2048x1_S512x2048_n_0_n_n_0_2_1 : GatherDims S2000000 S512x2048x1 S512x2048 where
  offsetDims := []
  collapsedSliceDims := [0]
  operandBatchingDims := []
  startIndicesBatchingDims := []
  startIndexMap := [0]
  indexVectorDim := 2
  sliceSizes := ![1]
  wf := gather_S2000000_S512x2048x1_S512x2048_n_0_n_n_0_2_1_wf
def gather_S2000000_S2048x2048x1_S2048x2048_n_0_n_n_0_2_1 : GatherDims S2000000 S2048x2048x1 S2048x2048 where
  offsetDims := []
  collapsedSliceDims := [0]
  operandBatchingDims := []
  startIndicesBatchingDims := []
  startIndexMap := [0]
  indexVectorDim := 2
  sliceSizes := ![1]
  wf := gather_S2000000_S2048x2048x1_S2048x2048_n_0_n_n_0_2_1_wf
def gather_S2000000_S2048x1000x1_S2048x1000_n_0_n_n_0_2_1 : GatherDims S2000000 S2048x1000x1 S2048x1000 where
  offsetDims := []
  collapsedSliceDims := [0]
  operandBatchingDims := []
  startIndicesBatchingDims := []
  startIndexMap := [0]
  indexVectorDim := 2
  sliceSizes := ![1]
  wf := gather_S2000000_S2048x1000x1_S2048x1000_n_0_n_n_0_2_1_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v31) S128x50x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v55) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S512x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S2048x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x50 : Shape := ⟨2, ![2048, 50]⟩
abbrev S2000000 : Shape := ⟨1, ![2000000]⟩
abbrev S512x2048 : Shape := ⟨2, ![512, 2048]⟩
abbrev S2048x2048 : Shape := ⟨2, ![2048, 2048]⟩
abbrev S2048x1000 : Shape := ⟨2, ![2048, 1000]⟩
abbrev S16 : Shape := ⟨1, ![16]⟩
abbrev S2048x50x1 : Shape := ⟨3, ![2048, 50, 1]⟩
abbrev S_ : Shape := ⟨0, ![]⟩
abbrev S1x1x16 : Shape := ⟨3, ![1, 1, 16]⟩
abbrev S2048x50x16 : Shape := ⟨3, ![2048, 50, 16]⟩
abbrev S2048x50x16x1 : Shape := ⟨4, ![2048, 50, 16, 1]⟩
abbrev S32 : Shape := ⟨1, ![32]⟩
abbrev S1x1x1x32 : Shape := ⟨4, ![1, 1, 1, 32]⟩
abbrev S2048x50x16x32 : Shape := ⟨4, ![2048, 50, 16, 32]⟩
abbrev S2048x50x16x32x1 : Shape := ⟨5, ![2048, 50, 16, 32, 1]⟩
abbrev S2048x50x512 : Shape := ⟨3, ![2048, 50, 512]⟩
abbrev S2048x512 : Shape := ⟨2, ![2048, 512]⟩
abbrev S512x2048x1 : Shape := ⟨3, ![512, 2048, 1]⟩
abbrev S2048x2048x1 : Shape := ⟨3, ![2048, 2048, 1]⟩
abbrev S2048x1000x1 : Shape := ⟨3, ![2048, 1000, 1]⟩

abbrev nBuf : Space → Nat
  | .hbm => 125
  | .vmem => 0
  | .smem => 0
  | _ => 0

abbrev bufTy : (tb : Table) → Fin (tcTables nBuf tb) → BufTy
  | .hbm, ⟨0, _⟩ => ⟨S2048x50, .i32⟩
  | .hbm, ⟨1, _⟩ => ⟨S2048x50, .f32⟩
  | .hbm, ⟨2, _⟩ => ⟨S2000000, .f32⟩
  | .hbm, ⟨3, _⟩ => ⟨S512x2048, .i32⟩
  | .hbm, ⟨4, _⟩ => ⟨S2048x2048, .i32⟩
  | .hbm, ⟨5, _⟩ => ⟨S2048x1000, .i32⟩
  | .hbm, ⟨6, _⟩ => ⟨S16, .i32⟩
  | .hbm, ⟨7, _⟩ => ⟨S2048x50x1, .i32⟩
  | .hbm, ⟨8, _⟩ => ⟨S_, .i32⟩
  | .hbm, ⟨9, _⟩ => ⟨S2048x50x1, .i32⟩
  | .hbm, ⟨10, _⟩ => ⟨S2048x50x1, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S1x1x16, .i32⟩
  | .hbm, ⟨15, _⟩ => ⟨S2048x50x16, .i32⟩
  | .hbm, ⟨16, _⟩ => ⟨S2048x50x16, .i32⟩
  | .hbm, ⟨17, _⟩ => ⟨S2048x50x16, .i32⟩
  | .hbm, ⟨18, _⟩ => ⟨S_, .i32⟩
  | .hbm, ⟨19, _⟩ => ⟨S2048x50x16, .i32⟩
  | .hbm, ⟨20, _⟩ => ⟨S2048x50x16, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S2048x50x16, .i32⟩
  | .hbm, ⟨28, _⟩ => ⟨S2048x50x16, .i32⟩
  | .hbm, ⟨29, _⟩ => ⟨S_, .i32⟩
  | .hbm, ⟨30, _⟩ => ⟨S2048x50x16, .i32⟩
  | .hbm, ⟨31, _⟩ => ⟨S2048x50x16, .i1⟩
  | .hbm, ⟨32, _⟩ => ⟨S_, .i32⟩
  | .hbm, ⟨33, _⟩ => ⟨S2048x50x16, .i32⟩
  | .hbm, ⟨34, _⟩ => ⟨S2048x50x16, .i1⟩
  | .hbm, ⟨35, _⟩ => ⟨S_, .i32⟩
  | .hbm, ⟨36, _⟩ => ⟨S_, .i1⟩
  | .hbm, ⟨37, _⟩ => ⟨S2048x50x16, .i1⟩
  | .hbm, ⟨38, _⟩ => ⟨S2048x50x16, .i1⟩
  | .hbm, ⟨39, _⟩ => ⟨S2048x50x16, .i1⟩
  | .hbm, ⟨40, _⟩ => ⟨S2048x50x16, .i32⟩
  | .hbm, ⟨41, _⟩ => ⟨S2048x50x16, .i32⟩
  | .hbm, ⟨42, _⟩ => ⟨S2048x50x16, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S2048x50x16, .i32⟩
  | .hbm, ⟨50, _⟩ => ⟨S2048x50x16, .i32⟩
  | .hbm, ⟨51, _⟩ => ⟨S_, .i32⟩
  | .hbm, ⟨52, _⟩ => ⟨S2048x50x16, .i32⟩
  | .hbm, ⟨53, _⟩ => ⟨S2048x50x16, .i1⟩
  | .hbm, ⟨54, _⟩ => ⟨S_, .i32⟩
  | .hbm, ⟨55, _⟩ => ⟨S2048x50x16, .i32⟩
  | .hbm, ⟨56, _⟩ => ⟨S2048x50x16, .i1⟩
  | .hbm, ⟨57, _⟩ => ⟨S_, .i32⟩
  | .hbm, ⟨58, _⟩ => ⟨S_, .i1⟩
  | .hbm, ⟨59, _⟩ => ⟨S2048x50x16, .i1⟩
  | .hbm, ⟨60, _⟩ => ⟨S2048x50x16, .i1⟩
  | .hbm, ⟨61, _⟩ => ⟨S2048x50x16, .i1⟩
  | .hbm, ⟨62, _⟩ => ⟨S2048x50x16, .i32⟩
  | .hbm, ⟨63, _⟩ => ⟨S2048x50x16, .i32⟩
  | .hbm, ⟨64, _⟩ => ⟨S2048x50x16, .i32⟩
  | .hbm, ⟨65, _⟩ => ⟨S2048x50x16x1, .i32⟩
  | .hbm, ⟨66, _⟩ => ⟨S32, .i32⟩
  | .hbm, ⟨67, _⟩ => ⟨S1x1x1x32, .i32⟩
  | .hbm, ⟨68, _⟩ => ⟨S2048x50x16x32, .i32⟩
  | .hbm, ⟨69, _⟩ => ⟨S2048x50x16x32, .i32⟩
  | .hbm, ⟨70, _⟩ => ⟨S2048x50x16x32, .i32⟩
  | .hbm, ⟨71, _⟩ => ⟨S_, .i32⟩
  | .hbm, ⟨72, _⟩ => ⟨S2048x50x16x32, .i32⟩
  | .hbm, ⟨73, _⟩ => ⟨S2048x50x16x32, .i1⟩
  | .hbm, ⟨74, _⟩ => ⟨S_, .i32⟩
  | .hbm, ⟨75, _⟩ => ⟨S2048x50x16x32, .i32⟩
  | .hbm, ⟨76, _⟩ => ⟨S2048x50x16x32, .i32⟩
  | .hbm, ⟨77, _⟩ => ⟨S2048x50x16x32, .i32⟩
  | .hbm, ⟨78, _⟩ => ⟨S2048x50x16x32x1, .i32⟩
  | .hbm, ⟨79, _⟩ => ⟨S2048x50x16x32, .f32⟩
  | .hbm, ⟨80, _⟩ => ⟨S2048x50x512, .f32⟩
  | .hbm, ⟨81, _⟩ => ⟨S_, .i32⟩
  | .hbm, ⟨82, _⟩ => ⟨S2048x50, .i32⟩
  | .hbm, ⟨83, _⟩ => ⟨S2048x50, .i1⟩
  | .hbm, ⟨84, _⟩ => ⟨S2048x50x1, .i1⟩
  | .hbm, ⟨85, _⟩ => ⟨S_, .f32⟩
  | .hbm, ⟨86, _⟩ => ⟨S_, .f32⟩
  | .hbm, ⟨87, _⟩ => ⟨S2048x50x512, .i1⟩
  | .hbm, ⟨88, _⟩ => ⟨S2048x50x512, .f32⟩
  | .hbm, ⟨89, _⟩ => ⟨S2048x50x512, .f32⟩
  | .hbm, ⟨90, _⟩ => ⟨S2048x50x1, .f32⟩
  | .hbm, ⟨91, _⟩ => ⟨S2048x50x512, .f32⟩
  | .hbm, ⟨92, _⟩ => ⟨S2048x50x512, .f32⟩
  | .hbm, ⟨93, _⟩ => ⟨S_, .f32⟩
  | .hbm, ⟨94, _⟩ => ⟨S2048x512, .f32⟩
  | .hbm, ⟨95, _⟩ => ⟨S_, .i32⟩
  | .hbm, ⟨96, _⟩ => ⟨S512x2048, .i32⟩
  | .hbm, ⟨97, _⟩ => ⟨S512x2048, .i1⟩
  | .hbm, ⟨98, _⟩ => ⟨S_, .i32⟩
  | .hbm, ⟨99, _⟩ => ⟨S512x2048, .i32⟩
  | .hbm, ⟨100, _⟩ => ⟨S512x2048, .i32⟩
  | .hbm, ⟨101, _⟩ => ⟨S512x2048, .i32⟩
  | .hbm, ⟨102, _⟩ => ⟨S512x2048x1, .i32⟩
  | .hbm, ⟨103, _⟩ => ⟨S512x2048, .f32⟩
  | .hbm, ⟨104, _⟩ => ⟨S2048x2048, .f32⟩
  | .hbm, ⟨105, _⟩ => ⟨S_, .i32⟩
  | .hbm, ⟨106, _⟩ => ⟨S2048x2048, .i32⟩
  | .hbm, ⟨107, _⟩ => ⟨S2048x2048, .i1⟩
  | .hbm, ⟨108, _⟩ => ⟨S_, .i32⟩
  | .hbm, ⟨109, _⟩ => ⟨S2048x2048, .i32⟩
  | .hbm, ⟨110, _⟩ => ⟨S2048x2048, .i32⟩
  | .hbm, ⟨111, _⟩ => ⟨S2048x2048, .i32⟩
  | .hbm, ⟨112, _⟩ => ⟨S2048x2048x1, .i32⟩
  | .hbm, ⟨113, _⟩ => ⟨S2048x2048, .f32⟩
  | .hbm, ⟨114, _⟩ => ⟨S2048x2048, .f32⟩
  | .hbm, ⟨115, _⟩ => ⟨S_, .i32⟩
  | .hbm, ⟨116, _⟩ => ⟨S2048x1000, .i32⟩
  | .hbm, ⟨117, _⟩ => ⟨S2048x1000, .i1⟩
  | .hbm, ⟨118, _⟩ => ⟨S_, .i32⟩
  | .hbm, ⟨119, _⟩ => ⟨S2048x1000, .i32⟩
  | .hbm, ⟨120, _⟩ => ⟨S2048x1000, .i32⟩
  | .hbm, ⟨121, _⟩ => ⟨S2048x1000, .i32⟩
  | .hbm, ⟨122, _⟩ => ⟨S2048x1000x1, .i32⟩
  | .hbm, ⟨123, _⟩ => ⟨S2048x1000, .f32⟩
  | .hbm, ⟨124, _⟩ => ⟨S2048x1000, .f32⟩
  | _, _ => ⟨S2048x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v12 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_c_4 : Ref sig .tc := ⟨.hbm, 71, rfl⟩
abbrev main_v20 : Ref sig .tc := ⟨.hbm, 72, rfl⟩
abbrev main_v21 : Ref sig .tc := ⟨.hbm, 73, rfl⟩
abbrev main_c_5 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_c_6 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_7 : Ref sig .tc := ⟨.hbm, 93, rfl⟩
abbrev main_v35 : Ref sig .tc := ⟨.hbm, 94, rfl⟩
abbrev main_c_8 : Ref sig .tc := ⟨.hbm, 95, rfl⟩
abbrev main_v36 : Ref sig .tc := ⟨.hbm, 96, rfl⟩
abbrev main_v37 : Ref sig .tc := ⟨.hbm, 97, rfl⟩
abbrev main_c_9 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_c_10 : Ref sig .tc := ⟨.hbm, 105, rfl⟩
abbrev main_v44 : Ref sig .tc := ⟨.hbm, 106, rfl⟩
abbrev main_v45 : Ref sig .tc := ⟨.hbm, 107, rfl⟩
abbrev main_c_11 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_c_12 : Ref sig .tc := ⟨.hbm, 115, rfl⟩
abbrev main_v52 : Ref sig .tc := ⟨.hbm, 116, rfl⟩
abbrev main_v53 : Ref sig .tc := ⟨.hbm, 117, rfl⟩
abbrev main_c_13 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩

abbrev nD : Nat := 1
abbrev τ : Topo := Topo.v7x

variable {F : FTy → Type} [FloatOps F]

class Facts₀ : Prop where
  bcast_S2048x50_S2048x50x1_0_1 : S2048x50.BroadcastsInDim S2048x50x1 (![0, 1] : Fin 2 → Fin S2048x50x1.rank)
  bcast_S_S2048x50x1 : S_.BroadcastsInDim S2048x50x1 (![] : Fin 0 → Fin S2048x50x1.rank)
  bcast_S_S16 : S_.BroadcastsInDim S16 (![] : Fin 0 → Fin S16.rank)
  bcast_S16_S1x1x16_2 : S16.BroadcastsInDim S1x1x16 (![2] : Fin 1 → Fin S1x1x16.rank)
  bcast_S2048x50x1_S2048x50x16_0_1_2 : S2048x50x1.BroadcastsInDim S2048x50x16 (![0, 1, 2] : Fin 3 → Fin S2048x50x16.rank)
  bcast_S1x1x16_S2048x50x16_0_1_2 : S1x1x16.BroadcastsInDim S2048x50x16 (![0, 1, 2] : Fin 3 → Fin S2048x50x16.rank)
  bcast_S_S2048x50x16 : S_.BroadcastsInDim S2048x50x16 (![] : Fin 0 → Fin S2048x50x16.rank)
  bcast_S2048x50x16_S2048x50x16x1_0_1_2 : S2048x50x16.BroadcastsInDim S2048x50x16x1 (![0, 1, 2] : Fin 3 → Fin S2048x50x16x1.rank)
  bcast_S32_S1x1x1x32_3 : S32.BroadcastsInDim S1x1x1x32 (![3] : Fin 1 → Fin S1x1x1x32.rank)
  bcast_S2048x50x16x1_S2048x50x16x32_0_1_2_3 : S2048x50x16x1.BroadcastsInDim S2048x50x16x32 (![0, 1, 2, 3] : Fin 4 → Fin S2048x50x16x32.rank)
  bcast_S1x1x1x32_S2048x50x16x32_0_1_2_3 : S1x1x1x32.BroadcastsInDim S2048x50x16x32 (![0, 1, 2, 3] : Fin 4 → Fin S2048x50x16x32.rank)
  bcast_S_S2048x50x16x32 : S_.BroadcastsInDim S2048x50x16x32 (![] : Fin 0 → Fin S2048x50x16x32.rank)
  bcast_S2048x50x16x32_S2048x50x16x32x1_0_1_2_3 : S2048x50x16x32.BroadcastsInDim S2048x50x16x32x1 (![0, 1, 2, 3] : Fin 4 → Fin S2048x50x16x32x1.rank)
  shapeCasts_S2048x50x16x32_S2048x50x512 : S2048x50x16x32.ShapeCasts S2048x50x512
  bcast_S_S2048x50 : S_.BroadcastsInDim S2048x50 (![] : Fin 0 → Fin S2048x50.rank)
  bcast_S2048x50x1_S2048x50x512_0_1_2 : S2048x50x1.BroadcastsInDim S2048x50x512 (![0, 1, 2] : Fin 3 → Fin S2048x50x512.rank)
  bcast_S_S2048x50x512 : S_.BroadcastsInDim S2048x50x512 (![] : Fin 0 → Fin S2048x50x512.rank)
  reducesTo_S2048x50x512_S2048x512_d1 : S2048x50x512.ReducesTo [1] S2048x512
  h_S_ : 0 < S_.numel
  bcast_S_S512x2048 : S_.BroadcastsInDim S512x2048 (![] : Fin 0 → Fin S512x2048.rank)
  bcast_S512x2048_S512x2048x1_0_1 : S512x2048.BroadcastsInDim S512x2048x1 (![0, 1] : Fin 2 → Fin S512x2048x1.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S_S2048x1000 : S_.BroadcastsInDim S2048x1000 (![] : Fin 0 → Fin S2048x1000.rank)
  bcast_S2048x1000_S2048x1000x1_0_1 : S2048x1000.BroadcastsInDim S2048x1000x1 (![0, 1] : Fin 2 → Fin S2048x1000x1.rank)
  gather_S2000000_S2048x50x16x32x1_S2048x50x16x32_n_0_n_n_0_4_1_wf : GatherDims.WF S2000000 S2048x50x16x32x1 S2048x50x16x32 [] [0] [] [0] [] 4 ![1]
  gather_S2000000_S512x2048x1_S512x2048_n_0_n_n_0_2_1_wf : GatherDims.WF S2000000 S512x2048x1 S512x2048 [] [0] [] [0] [] 2 ![1]
  dot_S2048x512_S512x2048_S2048x2048_1_0_0_1_n_n_wf : DotDims.WF S2048x512 S512x2048 S2048x2048 [1] [0] [0] [1] [] []
  gather_S2000000_S2048x2048x1_S2048x2048_n_0_n_n_0_2_1_wf : GatherDims.WF S2000000 S2048x2048x1 S2048x2048 [] [0] [] [0] [] 2 ![1]
  dot_S2048x2048_S2048x2048_S2048x2048_1_0_0_1_n_n_wf : DotDims.WF S2048x2048 S2048x2048 S2048x2048 [1] [0] [0] [1] [] []
  gather_S2000000_S2048x1000x1_S2048x1000_n_0_n_n_0_2_1_wf : GatherDims.WF S2000000 S2048x1000x1 S2048x1000 [] [0] [] [0] [] 2 ![1]
  dot_S2048x2048_S2048x1000_S2048x1000_1_0_0_1_n_n_wf : DotDims.WF S2048x2048 S2048x1000 S2048x1000 [1] [0] [0] [1] [] []

variable [Facts₀]

def gather_S2000000_S2048x50x16x32x1_S2048x50x16x32_n_0_n_n_0_4_1 : GatherDims S2000000 S2048x50x16x32x1 S2048x50x16x32 where
  offsetDims := []
  collapsedSliceDims := [0]
  operandBatchingDims := []
  startIndicesBatchingDims := []
  startIndexMap := [0]
  indexVectorDim := 4
  sliceSizes := ![1]
  wf := gather_S2000000_S2048x50x16x32x1_S2048x50x16x32_n_0_n_n_0_4_1_wf
def gather_S2000000_S512x2048x1_S512x2048_n_0_n_n_0_2_1 : GatherDims S2000000 S512x2048x1 S512x2048 where
  offsetDims := []
  collapsedSliceDims := [0]
  operandBatchingDims := []
  startIndicesBatchingDims := []
  startIndexMap := [0]
  indexVectorDim := 2
  sliceSizes := ![1]
  wf := gather_S2000000_S512x2048x1_S512x2048_n_0_n_n_0_2_1_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def gather_S2000000_S2048x2048x1_S2048x2048_n_0_n_n_0_2_1 : GatherDims S2000000 S2048x2048x1 S2048x2048 where
  offsetDims := []
  collapsedSliceDims := [0]
  operandBatchingDims := []
  startIndicesBatchingDims := []
  startIndexMap := [0]
  indexVectorDim := 2
  sliceSizes := ![1]
  wf := gather_S2000000_S2048x2048x1_S2048x2048_n_0_n_n_0_2_1_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def gather_S2000000_S2048x1000x1_S2048x1000_n_0_n_n_0_2_1 : GatherDims S2000000 S2048x1000x1 S2048x1000 where
  offsetDims := []
  collapsedSliceDims := [0]
  operandBatchingDims := []
  startIndicesBatchingDims := []
  startIndexMap := [0]
  indexVectorDim := 2
  sliceSizes := ![1]
  wf := gather_S2000000_S2048x1000x1_S2048x1000_n_0_n_n_0_2_1_wf
def dot_S2048x2048_S2048x1000_S2048x1000_1_0_0_1_n_n : DotDims S2048x2048 S2048x1000 S2048x1000 where
  lhsContracting := [1]
  rhsContracting := [0]
  lhsNonContracting := [0]
  rhsNonContracting := [1]
  lhsBatch := []
  rhsBatch := []
  wf := dot_S2048x2048_S2048x1000_S2048x1000_1_0_0_1_n_n_wf

class Facts : Prop extends Facts₀ where

variable [Facts]
-- ==== Proof.Spec.lean ====
/-
  What both programs compute, as functions of whole arrays over the extended reals.

  A hashed-weight network: rows of an embedding array `e` (one row per history position of a batch entry) are
  pooled with weights `w`, `pool e w (b, d) = ∑ l, e (b, l, d) · w (b, l)`, and the pooled rows go through three
  matrix products in a row, `out = ((pool e w) · W1 · W2) · W3`. Nothing here depends on how `e`, `W1`, `W2`,
  `W3` were gathered from the hashed table: they are arguments.

  Every function is stated over literal extents and read at an index built from its coordinates (`ix2 p q`,
  `ix3 b l d`), where it is a finite sum of products: no law of the extended reals beyond the definition is used.
-/
import Idealize.ShloMosaic.PureOps.Ideal
import Idealize.ShloMosaic.Lib.ValueIdx

noncomputable section

namespace Cert.Spec

open Idealize.ShloMosaic Idealize.ShloMosaic.ValueIdx

/-- A matrix of extended reals with `m` rows and `n` columns. -/
abbrev Mat (m n : Nat) : Type := (⟨2, ![m, n]⟩ : Shape).Idx → EReal

/-- A rank-3 array of extended reals. -/
abbrev Cube (a b c : Nat) : Type := (⟨3, ![a, b, c]⟩ : Shape).Idx → EReal

/-- The matrix product, entry by entry: row `j 0` of `a` against column `j 1` of `b`. -/
def mm {M K N : Nat} (a : Mat M K) (b : Mat K N) : Mat M N :=
  fun j => ∑ k : Fin K, a (ix2 (n0 := M) (n1 := K) (j 0) k) * b (ix2 (n0 := K) (n1 := N) k (j 1))

theorem mm_apply {M K N : Nat} (a : Mat M K) (b : Mat K N) (p : Fin M) (q : Fin N) :
    mm a b (ix2 p q) = ∑ k : Fin K, a (ix2 p k) * b (ix2 k q) := rfl

/-- The weighted pool over the history axis: entry `(b, d)` is `∑ l, e (b, l, d) · w (b, l)`. -/
def pool {B L D : Nat} (e : Cube B L D) (w : Mat B L) : Mat B D :=
  fun j => ∑ l : Fin L, e (ix3 (n0 := B) (n1 := L) (n2 := D) (j 0) l (j 1)) * w (ix2 (n0 := B) (n1 := L) (j 0) l)

theorem pool_apply {B L D : Nat} (e : Cube B L D) (w : Mat B L) (b : Fin B) (d : Fin D) :
    pool e w (ix2 b d) = ∑ l : Fin L, e (ix3 b l d) * w (ix2 b l) := rfl

/-- The network: the pooled rows through three matrix products. -/
def out (e : Cube 2048 50 512) (w : Mat 2048 50) (W1 : Mat 512 2048) (W2 : Mat 2048 2048) (W3 : Mat 2048 1000) :
    Mat 2048 1000 :=
  mm (mm (mm (pool e w) W1) W2) W3

/-- A matrix with columns appended, cut back to its own columns, multiplies as the matrix itself: the product's
    entry in a kept column only reads that column. -/
theorem mm_cols {M K N N' : Nat} (a : Mat M K) (b : Mat K N) (b' : Mat K N') (hN : N ≤ N')
    (hb : ∀ (k : Fin K) (q : Fin N), b' (ix2 k ⟨q.val, lt_of_lt_of_le q.isLt hN⟩) = b (ix2 k q))
    (p : Fin M) (q : Fin N) :
    mm a b' (ix2 p ⟨q.val, lt_of_lt_of_le q.isLt hN⟩) = mm a b (ix2 p q) := by
  rw [mm_apply, mm_apply]
  exact Finset.sum_congr rfl fun k _ => by rw [hb k q]

end Cert.Spec

end
-- ==== Proof.KerPool.lean ====
/- The pooling region's output array after its run, as one function of the arrays the region finds. -/
import proofs.«139206_j5952824673078_1_alg».proof.Proof.Gen.KernelIdeal.Frame
import proofs.«139206_j5952824673078_1_alg».proof.Proof.Spec
import Idealize.ShloMosaic.PureOps.Ideal.Laws
import Idealize.ShloMosaic.Lib.Pipeline.Value
import Idealize.ShloMosaic.Lib.ValueIdx

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

/-! ## The body's payload at an index

The body multiplies the embedding block `x0 : [128, 50, 512]` by the weights `x1 : [128, 50]` repeated along the
feature axis and sums over the history axis. Read at `(b, d)` this is `∑ l, x0 (b, l, d) · x1 (b, l)`. -/

/-- Inserting history position `l` into the pooled index `(b, d)` gives `(b, l, d)`. -/
theorem lift_pool (h : S128x50x512.Reduces [1] S128x512) (b : Fin 128) (d : Fin 512) (l : Fin 50) :
    h.lift (ix2 b d) l = ix3 b l d := by
  funext c; apply Fin.ext
  match c with
  | ⟨0, _⟩ => rfl
  | ⟨1, _⟩ => rfl
  | ⟨2, _⟩ => rfl

/-- The weights, given a trailing unit axis and then repeated along the feature axis, read `(b, l)` at `(b, l, d)`:
    the repeat reads the unit axis at `0`, and `(b, l, 0)` has the row-major position of `(b, l)`. -/
theorem weights_column (x1 : FVec Ideal S128x50 .f32) (hc : S128x50.ShapeCasts S128x50x1)
    (hb : S128x50x1.Broadcasts S128x50x512) (b : Fin 128) (l : Fin 50) (d : Fin 512) :
    broadcastTo S128x50x512 (shapeCast S128x50x1 x1 hc) hb (ix3 b l d) = x1 (ix2 b l) := by
  refine (broadcastTo_apply _ hb (ix3 b l d) (ix3 b l (0 : Fin 1)) fun a => ?_).trans ?_
  · match a with
    | ⟨0, _⟩ => rfl
    | ⟨1, _⟩ => rfl
    | ⟨2, _⟩ => rfl
  · refine shapeCast_apply x1 hc _ _ ?_
    rw [Shape.rowMajor_val_two, Shape.rowMajor_val_three]
    show b.val * 50 + l.val = (b.val * 50 + l.val) * 1 + 0
    omega

/-- One term of the pooled sum: the embedding block times the repeated weights at `(b, l, d)`. -/
theorem term_apply (x0 : FVec Ideal S128x50x512 .f32) (x1 : FVec Ideal S128x50 .f32)
    (hr : S128x50x512.Reduces [1] S128x512) (hc : S128x50.ShapeCasts S128x50x1)
    (hb : S128x50x1.Broadcasts S128x50x512) (b : Fin 128) (d : Fin 512) (l : Fin 50) :
    mulf (shapeCast S128x50x512 x0 shapeCasts_S128x50x512_S128x50x512)
        (broadcastTo S128x50x512 (shapeCast S128x50x1 x1 hc) hb) (hr.lift (ix2 b d) l)
      = x0 (ix3 b l d) * x1 (ix2 b l) := by
  rw [lift_pool, mulf_apply, shapeCast_self, weights_column]

/-- The body's payload at `(b, d)`: the sum over the history axis of embedding times weight. -/
theorem pay_apply (x0 : FVec Ideal S128x50x512 .f32) (x1 : FVec Ideal S128x50 .f32) (b : Fin 128) (d : Fin 512) :
    k0_pay1 x0 x1 (ix2 b d) = ∑ l : Fin 50, x0 (ix3 b l d) * x1 (ix2 b l) := by
  unfold k0_pay1
  refine (Ideal.multiReduction_add_single _ _ _ _ _ (ix2 b d)).trans ?_
  exact Finset.sum_congr rfl fun l _ => term_apply x0 x1 _ _ _ b d l

/-- When the two blocks are rows `128·n …` of whole arrays `e` and `w`, the payload at `y` is the pooled whole
    array at the index `i` that `y` has in the whole: the two sums agree term by term. -/
theorem pay_eq_pool (e : Cert.Spec.Cube 2048 50 512) (w : Cert.Spec.Mat 2048 50)
    (x0 : FVec Ideal S128x50x512 .f32) (x1 : FVec Ideal S128x50 .f32) (n : Nat)
    (h0 : ∀ (x : S128x50x512.Idx) (k : S2048x50x512.Idx), (k 0).val = n * 128 + (x 0).val → (k 1).val = (x 1).val →
      (k 2).val = (x 2).val → x0 x = e k)
    (h1 : ∀ (x : S128x50.Idx) (k : S2048x50.Idx), (k 0).val = n * 128 + (x 0).val → (k 1).val = (x 1).val → x1 x = w k)
    (y : S128x512.Idx) (i : S2048x512.Idx) (hi0 : (i 0).val = n * 128 + (y 0).val) (hi1 : (i 1).val = (y 1).val) :
    k0_pay1 (F := Ideal) x0 x1 y = Cert.Spec.pool e w i := by
  obtain ⟨b, d, rfl⟩ : ∃ (b : Fin 128) (d : Fin 512), y = ix2 b d := ⟨y 0, y 1, eq_ix2 y⟩
  obtain ⟨p, q, rfl⟩ : ∃ (p : Fin 2048) (q : Fin 512), i = ix2 p q := ⟨i 0, i 1, eq_ix2 i⟩
  rw [pay_apply, Cert.Spec.pool_apply]
  exact Finset.sum_congr rfl fun l _ => by
    rw [h0 (ix3 b l d) (ix3 p l q) hi0 rfl hi1, h1 (ix2 b l) (ix2 p l) hi0 rfl]

/-! ## From blocks to the array

Grid point `t` reads rows `128·t … 128·t + 127` of both inputs and writes back the same rows of the pooled array. -/

variable (V : (c : Dev nD) → (b : Ref sig .tc) → Buf (Elt Ideal) ((c : Thread nD τ).loc b))

theorem zeros₂ : (![0, 0] : Fin 2 → Nat) = fun _ => 0 := funext fun a => by fin_cases a <;> rfl
theorem zeros₃ : (![0, 0, 0] : Fin 3 → Nat) = fun _ => 0 := funext fun a => by fin_cases a <;> rfl

/-- The three index maps, decided over the 16 grid points: every window's block index is `t` on the row axis and
    `0` on the others. -/
theorem block_index : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The embedding window's block at point `t` is rows `128·t …` of the embedding array. -/
theorem emb_block (c : Dev nD) (t : Fin cfg0.N) (x : S128x50x512.Idx) (k : S2048x50x512.Idx)
    (hk0 : (k 0).val = t.val * 128 + (x 0).val) (hk1 : (k 1).val = (x 1).val) (hk2 : (k 2).val = (x 2).val) :
    (iblk0 V c 0 t : Vec Ideal S128x50x512 .f32) x = (V c main_v31 : S2048x50x512.Idx → EReal) k := by
  obtain ⟨e0, e1, e2, -⟩ := block_index t
  unfold iblk0
  rw [View.read_apply]
  show V c main_v31 _ = V c main_v31 _
  congr 1
  funext a
  apply Fin.ext
  match a with
  | ⟨0, _⟩ => show win0_0.index t (0 : Fin 3) * 128 + 1 * (x 0).val = (k 0).val; rw [e0, hk0]; omega
  | ⟨1, _⟩ => show win0_0.index t (1 : Fin 3) * 50 + 1 * (x 1).val = (k 1).val; rw [e1, hk1]; omega
  | ⟨2, _⟩ => show win0_0.index t (2 : Fin 3) * 512 + 1 * (x 2).val = (k 2).val; rw [e2, hk2]; omega

/-- The weights window's block at point `t` is rows `128·t …` of the weights. -/
theorem weights_block (c : Dev nD) (t : Fin cfg0.N) (x : S128x50.Idx) (k : S2048x50.Idx)
    (hk0 : (k 0).val = t.val * 128 + (x 0).val) (hk1 : (k 1).val = (x 1).val) :
    (iblk0 V c 1 t : Vec Ideal S128x50 .f32) x = (V c main_arg1 : S2048x50.Idx → EReal) k := by
  obtain ⟨-, -, -, e0, e1, -⟩ := block_index t
  unfold iblk0
  rw [View.read_apply]
  show V c main_arg1 _ = V c main_arg1 _
  congr 1
  funext a
  apply Fin.ext
  match a with
  | ⟨0, _⟩ => show win0_1.index t (0 : Fin 2) * 128 + 1 * (x 0).val = (k 0).val; rw [e0, hk0]; omega
  | ⟨1, _⟩ => show win0_1.index t (1 : Fin 2) * 50 + 1 * (x 1).val = (k 1).val; rw [e1, hk1]; omega

/-- What point `t` writes back is block `t` of the pooled whole array. -/
theorem flushed_pool (c : Dev nD) (t : Fin cfg0.N) :
    (dat0 V c).flushed 2 t = ((cfg0.win 2).blk t).view.read (Elt Ideal)
      (Cert.Spec.pool (B := 2048) (L := 50) (D := 512) (V c main_v31) (V c main_arg1)) := by
  show (cfg0.win 2).cut (grid0.coords t) ((dat0 V c).after 2 t) = _
  rw [after0_2]
  unfold out0_2
  rw [View.canon_unit_zero zeros₂]
  simp only [View.ld_unit_zero (S := S128x50x512) zeros₃, View.ld_unit_zero (S := S128x50) zeros₂]
  obtain ⟨-, -, -, -, -, e0, e1⟩ := block_index t
  funext j
  rw [View.read_apply]
  refine pay_eq_pool (V c main_v31) (V c main_arg1) (iblk0 V c 0 t) (iblk0 V c 1 t) t.val
    (fun x k h0 h1 h2 => emb_block V c t x k h0 h1 h2) (fun x k h0 h1 => weights_block V c t x k h0 h1) _ _ ?_ ?_
  · show win0_2.index t (0 : Fin 2) * 128 + 1 * (j 0).val = t.val * 128 + (j 0).val; rw [e0]; omega
  · show win0_2.index t (1 : Fin 2) * 512 + 1 * (j 1).val = (j 1).val; rw [e1]; omega

/-- An index of the pooled array is in point `t`'s block iff each coordinate is in the block's range on its axis. -/
theorem mem_block (t : Fin cfg0.N) (i : S2048x512.Idx) :
    i ∈ ((cfg0.win 2).blk t).view.set ↔ ∀ a : Fin 2, win0_2.index t a * S128x512.size a ≤ (i a).val
      ∧ (i a).val < win0_2.index t a * S128x512.size a + S128x512.size a := by
  show i ∈ ((View.whole main_v32).slice (win0_2.rect t)).set ↔ _
  rw [View.set_slice_whole, Rect.mem_set_unit]
  exact Iff.rfl

/-- Every index of the pooled array is in some point's block: row `r` is in point `r / 128`'s. -/
theorem covered (i : S2048x512.Idx) :
    ∃ t : Fin cfg0.N, (cfg0.win 2).flush t = true ∧ i ∈ ((cfg0.win 2).blk t).view.set := by
  have hN : cfg0.N = 16 := N_0
  have hi0 : (i 0).val < 2048 := (i 0).isLt
  have hi1 : (i 1).val < 512 := (i 1).isLt
  refine ⟨⟨(i 0).val / 128, by rw [hN]; omega⟩, flush0_2 _, ?_⟩
  obtain ⟨-, -, -, -, -, e0, e1⟩ := block_index ⟨(i 0).val / 128, by rw [hN]; omega⟩
  rw [mem_block]
  intro a
  match a with
  | ⟨0, _⟩ =>
    show win0_2.index _ (0 : Fin 2) * 128 ≤ (i 0).val ∧ (i 0).val < win0_2.index _ (0 : Fin 2) * 128 + 128
    rw [e0]; show (i 0).val / 128 * 128 ≤ (i 0).val ∧ (i 0).val < (i 0).val / 128 * 128 + 128; omega
  | ⟨1, _⟩ =>
    show win0_2.index _ (1 : Fin 2) * 512 ≤ (i 1).val ∧ (i 1).val < win0_2.index _ (1 : Fin 2) * 512 + 512
    rw [e1]; omega

/-- After the pooling region the pooled array holds `Spec.pool` of the embedding array and the weights as the
    region found them: each grid point writes back rows `128·t … 128·t + 127`, and the 16 points cover all 2048 rows. -/
theorem pool_arr (c : Dev nD) :
    (dat0 V c).arrAt 2 cfg0.N = Cert.Spec.pool (B := 2048) (L := 50) (D := 512) (V c main_v31) (V c main_arg1) :=
  (dat0 V c).arrAt_eq_of_cover 2 _ (fun t _ => flushed_pool V c t) covered

end Cert.KernelIdeal.KV

end
-- ==== Proof.KerMlp.lean ====
/- The three-matmul region's output array after its run, as one function of the arrays the region finds. -/
import proofs.«139206_j5952824673078_1_alg».proof.Proof.Gen.KernelIdeal.Frame
import proofs.«139206_j5952824673078_1_alg».proof.Proof.Spec
import Idealize.ShloMosaic.PureOps.Ideal.Laws
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Mlp

/-! ## A matrix product into a zero accumulator, entry by entry

Each of the body's three products contracts the left operand's columns against the right operand's rows and has no
batch axis, so an entry is one finite sum. The contraction index is identified with its one coordinate, and the two
operand indices are read off coordinate by coordinate. -/

/-! ### First product: [256, 512] times [512, 2048] -/

/-- Row coordinate of the left operand: the output's row. -/
theorem lhs_mmA_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
/-- Column coordinate of the left operand: the summation index. -/
theorem lhs_mmA_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
/-- Row coordinate of the right operand: the summation index. -/
theorem rhs_mmA_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
/-- Column coordinate of the right operand: the output's column. -/
theorem rhs_mmA_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- Accumulating into zero, the product's entry (p, q) is the sum over k of left (p, k) times right (k, q). -/
theorem mmA_apply (l : FVec Ideal S256x512 .bf16) (r : FVec Ideal S512x2048 .bf16) (p : Fin 256) (q : Fin 2048) :
    matmul dot_S256x512_S512x2048_S256x2048_1_0_0_1_n_n none l r (constant (F := Ideal) S256x2048 .f32 0x00000000#32) (ix2 p q)
      = ∑ k : Fin 512, l (ix2 p k) * r (ix2 k q) := by
  simp only [matmul]
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 p q) ((contrEquiv1 dot_S256x512_S512x2048_S256x2048_1_0_0_1_n_n 512 rfl rfl).symm k) = ix2 p k := funext fun a => Fin.ext (by
    match a with
    | ⟨0, _⟩ => exact lhs_mmA_0 _ _
    | ⟨1, _⟩ => exact (lhs_mmA_1 _ _).trans hk)
  have er : dot_S256x512_S512x2048_S256x2048_1_0_0_1_n_n.rhsIdx (ix2 p q) ((contrEquiv1 dot_S256x512_S512x2048_S256x2048_1_0_0_1_n_n 512 rfl rfl).symm k) = ix2 k q := funext fun a => Fin.ext (by
    match a with
    | ⟨0, _⟩ => exact (rhs_mmA_0 _ _).trans hk
    | ⟨1, _⟩ => exact rhs_mmA_1 _ _)
  rw [el, er]

/-! ### Second product: [256, 2048] times [2048, 2048] -/

/-- Row coordinate of the left operand: the output's row. -/
theorem lhs_mmB_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
/-- Column coordinate of the left operand: the summation index. -/
theorem lhs_mmB_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
/-- Row coordinate of the right operand: the summation index. -/
theorem rhs_mmB_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
/-- Column coordinate of the right operand: the output's column. -/
theorem rhs_mmB_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- Accumulating into zero, the product's entry (p, q) is the sum over k of left (p, k) times right (k, q). -/
theorem mmB_apply (l : FVec Ideal S256x2048 .bf16) (r : FVec Ideal S2048x2048 .bf16) (p : Fin 256) (q : Fin 2048) :
    matmul dot_S256x2048_S2048x2048_S256x2048_1_0_0_1_n_n none l r (constant (F := Ideal) S256x2048 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q) ((contrEquiv1 dot_S256x2048_S2048x2048_S256x2048_1_0_0_1_n_n 2048 rfl rfl).symm k) = ix2 p k := funext fun a => Fin.ext (by
    match a with
    | ⟨0, _⟩ => exact lhs_mmB_0 _ _
    | ⟨1, _⟩ => exact (lhs_mmB_1 _ _).trans hk)
  have er : dot_S256x2048_S2048x2048_S256x2048_1_0_0_1_n_n.rhsIdx (ix2 p q) ((contrEquiv1 dot_S256x2048_S2048x2048_S256x2048_1_0_0_1_n_n 2048 rfl rfl).symm k) = ix2 k q := funext fun a => Fin.ext (by
    match a with
    | ⟨0, _⟩ => exact (rhs_mmB_0 _ _).trans hk
    | ⟨1, _⟩ => exact rhs_mmB_1 _ _)
  rw [el, er]

/-! ### Third product: [256, 2048] times [2048, 1024] -/

/-- Row coordinate of the left operand: the output's row. -/
theorem lhs_mmC_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
/-- Column coordinate of the left operand: the summation index. -/
theorem lhs_mmC_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
/-- Row coordinate of the right operand: the summation index. -/
theorem rhs_mmC_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
/-- Column coordinate of the right operand: the output's column. -/
theorem rhs_mmC_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- Accumulating into zero, the product's entry (p, q) is the sum over k of left (p, k) times right (k, q). -/
theorem mmC_apply (l : FVec Ideal S256x2048 .bf16) (r : FVec Ideal S2048x1024 .bf16) (p : Fin 256) (q : Fin 1024) :
    matmul dot_S256x2048_S2048x1024_S256x1024_1_0_0_1_n_n none l r (constant (F := Ideal) S256x1024 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact lhs_mmC_0 _ _
    | ⟨1, _⟩ => exact (lhs_mmC_1 _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (rhs_mmC_0 _ _).trans hk
    | ⟨1, _⟩ => exact rhs_mmC_1 _ _)
  rw [el, er]

/-! ## The body's value at an entry -/

/-- The body's stored value at (p, q): three nested sums. The self-casts are identities and narrowing to bf16 is the
    identity on extended reals, so nothing stands between one product and the next. -/
theorem pay_apply (x0 : FVec Ideal S256x512 .bf16) (x1 : FVec Ideal S512x2048 .bf16) (x2 : FVec Ideal S2048x2048 .bf16)
    (x3 : FVec Ideal S2048x1024 .bf16) (p : Fin 256) (q : Fin 1024) :
    k1_pay1 (F := Ideal) x0 x1 x2 x3 (ix2 p q)
      = ∑ k3 : Fin 2048, (∑ k2 : Fin 2048, (∑ k1 : Fin 512, x0 (ix2 p k1) * x1 (ix2 k1 k2)) * x2 (ix2 k2 k3)) * x3 (ix2 k3 q) := by
  unfold k1_pay1
  simp only [shapeCast_self]
  rw [mmC_apply]
  refine Finset.sum_congr rfl fun k3 _ => ?_
  rw [truncf_apply, mmB_apply]
  refine congrArg (· * x3 (ix2 k3 q)) (Finset.sum_congr rfl fun k2 _ => ?_)
  rw [truncf_apply, mmA_apply]

/-! ## From one grid point's block to the whole array -/

/-- The whole-block rectangle's offsets are all zero. -/
theorem off_zero : (![0, 0] : Fin 2 → Nat) = fun _ => 0 := funext fun a => by fin_cases a <;> rfl

/-- The three products in a row, as one function of the four arrays. -/
abbrev chain (A0 : Cert.Spec.Mat 2048 512) (A1 : Cert.Spec.Mat 512 2048) (A2 : Cert.Spec.Mat 2048 2048)
    (A3 : Cert.Spec.Mat 2048 1024) : Cert.Spec.Mat 2048 1024 :=
  Cert.Spec.mm (M := 2048) (K := 2048) (N := 1024)
    (Cert.Spec.mm (M := 2048) (K := 2048) (N := 2048) (Cert.Spec.mm (M := 2048) (K := 512) (N := 2048) A0 A1) A2) A3

/-- One grid point: if the first operand's block holds rows `row p` of the first array and the other three blocks are
    the whole arrays, the body's value at (p, q) is the chain's entry (row p, q). Only the row of the first factor
    depends on the point; every sum runs over a full axis. -/
theorem point_eq (A0 : FVec Ideal S2048x512 .bf16) (A1 : FVec Ideal S512x2048 .bf16) (A2 : FVec Ideal S2048x2048 .bf16)
    (A3 : FVec Ideal S2048x1024 .bf16)
    (x0 : FVec Ideal S256x512 .bf16) (x1 : FVec Ideal S512x2048 .bf16) (x2 : FVec Ideal S2048x2048 .bf16)
    (x3 : FVec Ideal S2048x1024 .bf16) (row : Fin 256 → Fin 2048)
    (h0 : ∀ (p : Fin 256) (k : Fin 512), x0 (ix2 p k) = A0 (ix2 (row p) k))
    (h1 : x1 = A1) (h2 : x2 = A2) (h3 : x3 = A3) (p : Fin 256) (q : Fin 1024) :
    k1_pay1 (F := Ideal) x0 x1 x2 x3 (ix2 p q) = chain A0 A1 A2 A3 (ix2 (row p) q) := by
  subst h1 h2 h3
  rw [pay_apply]
  unfold chain
  rw [Cert.Spec.mm_apply]
  refine Finset.sum_congr rfl fun k3 _ => ?_
  rw [Cert.Spec.mm_apply]
  refine congrArg (· * x3 (ix2 k3 q)) (Finset.sum_congr rfl fun k2 _ => ?_)
  rw [Cert.Spec.mm_apply]
  refine congrArg (· * x2 (ix2 k2 k3)) (Finset.sum_congr rfl fun k1 _ => ?_)
  rw [h0]

/-- The five windows' index maps over the 8 grid points: the first operand's block and the output's block sit at the same
    block row, which is the point's number; every other block index is zero. -/
theorem idx_facts : ∀ t : Fin cfg1.N,
    win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of point `t`'s block is row `256·t + p` of the array. -/
def rowOf (t : Fin cfg1.N) (p : Fin 256) : Fin 2048 :=
  ⟨256 * t.val + p.val, by have ht : t.val < 8 := t.isLt; have := p.isLt; omega⟩

/-- The first operand's block at point `t` holds rows `256·t …` of the first array, all 512 columns. -/
theorem blk0_eq (c : Dev nD) (t : Fin cfg1.N) (p : Fin 256) (k : Fin 512) :
    iblk1 V c 0 t (ix2 p k) = V c main_v55 (ix2 (rowOf t p) k) := by
  obtain ⟨e0, e1, e2, e3, e4, e5, e6, e7, e8, e9⟩ := idx_facts t
  show V c main_v55 (((cfg1.win 0).blk t).view.emb (ix2 p k)) = V c main_v55 (ix2 (rowOf t p) k)
  refine congrArg (V c main_v55) (funext fun a => Fin.ext ?_)
  match a with
  | ⟨0, _⟩ => show win1_0.index t (0 : Fin 2) * 256 + 1 * p.val = 256 * t.val + p.val; omega
  | ⟨1, _⟩ => show win1_0.index t (1 : Fin 2) * 512 + 1 * k.val = k.val; omega

/-- The second operand's block is the whole second array at every point. -/
theorem blk1_eq (c : Dev nD) (t : Fin cfg1.N) : iblk1 V c 1 t = V c main_v56 := funext fun y => by
  obtain ⟨e0, e1, e2, e3, e4, e5, e6, e7, e8, e9⟩ := idx_facts t
  show V c main_v56 (((cfg1.win 1).blk t).view.emb y) = V c main_v56 y
  refine congrArg (V c main_v56) (funext fun a => Fin.ext ?_)
  match a with
  | ⟨0, _⟩ => show win1_1.index t (0 : Fin 2) * 512 + 1 * (y 0).val = (y 0).val; omega
  | ⟨1, _⟩ => show win1_1.index t (1 : Fin 2) * 2048 + 1 * (y 1).val = (y 1).val; omega

/-- The third operand's block is the whole third array at every point. -/
theorem blk2_eq (c : Dev nD) (t : Fin cfg1.N) : iblk1 V c 2 t = V c main_v57 := funext fun y => by
  obtain ⟨e0, e1, e2, e3, e4, e5, e6, e7, e8, e9⟩ := idx_facts t
  show V c main_v57 (((cfg1.win 2).blk t).view.emb y) = V c main_v57 y
  refine congrArg (V c main_v57) (funext fun a => Fin.ext ?_)
  match a with
  | ⟨0, _⟩ => show win1_2.index t (0 : Fin 2) * 2048 + 1 * (y 0).val = (y 0).val; omega
  | ⟨1, _⟩ => show win1_2.index t (1 : Fin 2) * 2048 + 1 * (y 1).val = (y 1).val; omega

/-- The fourth operand's block is the whole fourth array at every point. -/
theorem blk3_eq (c : Dev nD) (t : Fin cfg1.N) : iblk1 V c 3 t = V c main_v58 := funext fun y => by
  obtain ⟨e0, e1, e2, e3, e4, e5, e6, e7, e8, e9⟩ := idx_facts t
  show V c main_v58 (((cfg1.win 3).blk t).view.emb y) = V c main_v58 y
  refine congrArg (V c main_v58) (funext fun a => Fin.ext ?_)
  match a with
  | ⟨0, _⟩ => show win1_3.index t (0 : Fin 2) * 2048 + 1 * (y 0).val = (y 0).val; omega
  | ⟨1, _⟩ => show win1_3.index t (1 : Fin 2) * 1024 + 1 * (y 1).val = (y 1).val; omega

/-- The output block's entry (p, q) at point `t` sits at (256·t + p, q) of the output array. -/
theorem emb4_eq (t : Fin cfg1.N) (p : Fin 256) (q : Fin 1024) :
    ((cfg1.win 4).blk t).view.emb (ix2 p q) = ix2 (rowOf t p) q := by
  obtain ⟨e0, e1, e2, e3, e4, e5, e6, e7, e8, e9⟩ := idx_facts t
  funext a; apply Fin.ext
  match a with
  | ⟨0, _⟩ => show win1_4.index t (0 : Fin 2) * 256 + 1 * p.val = 256 * t.val + p.val; omega
  | ⟨1, _⟩ => show win1_4.index t (1 : Fin 2) * 1024 + 1 * q.val = q.val; omega

/-- What point `t` writes back is block `t` of the chain of the four arrays as the region finds them. -/
theorem flushed_eq (c : Dev nD) (t : Fin cfg1.N) :
    (dat1 V c).flushed 4 t
      = ((cfg1.win 4).blk t).view.read (Elt Ideal) (chain (V c main_v55) (V c main_v56) (V c main_v57) (V c main_v58)) := by
  show (cfg1.win 4).cut (grid1.coords t) ((dat1 V c).after 4 t) = _
  rw [after1_4]
  unfold out1_4
  rw [View.canon_unit_zero off_zero]
  simp only [View.ld_unit_zero (S := S256x512) off_zero, View.ld_unit_zero (S := S512x2048) off_zero,
    View.ld_unit_zero (S := S2048x2048) off_zero, View.ld_unit_zero (S := S2048x1024) off_zero]
  funext j
  obtain ⟨p, q, rfl⟩ : ∃ (p : Fin 256) (q : Fin 1024), j = ix2 p q := ⟨j 0, j 1, eq_ix2 j⟩
  show k1_pay1 (iblk1 V c 0 t) (iblk1 V c 1 t) (iblk1 V c 2 t) (iblk1 V c 3 t) (ix2 p q)
    = chain (V c main_v55) (V c main_v56) (V c main_v57) (V c main_v58) (((cfg1.win 4).blk t).view.emb (ix2 p q))
  rw [emb4_eq]
  exact point_eq (V c main_v55) (V c main_v56) (V c main_v57) (V c main_v58) _ _ _ _ (rowOf t)
    (blk0_eq V c t) (blk1_eq V c t) (blk2_eq V c t) (blk3_eq V c t) p q

/-- An index of the output array is in point `t`'s block iff each coordinate is in the block's range on its axis. -/
theorem mem_blk (t : Fin cfg1.N) (i : S2048x1024.Idx) :
    i ∈ ((cfg1.win 4).blk t).view.set
      ↔ ∀ a : Fin 2, win1_4.index t a * S256x1024.size a ≤ (i a).val
          ∧ (i a).val < win1_4.index t a * S256x1024.size a + S256x1024.size a := by
  show i ∈ ((View.whole main_v59).slice (win1_4.rect t)).set ↔ _
  rw [View.set_slice_whole, Rect.mem_set_unit]
  exact Iff.rfl

/-- Every index of the 2048 x 1024 array is written by some point: row `r` lies in the block of point `r / 256`,
    and each block spans all 1024 columns. -/
theorem covered (i : S2048x1024.Idx) :
    ∃ t : Fin cfg1.N, (cfg1.win 4).flush t = true ∧ i ∈ ((cfg1.win 4).blk t).view.set := by
  have hi0 : (i 0).val < 2048 := (i 0).isLt
  have hi1 : (i 1).val < 1024 := (i 1).isLt
  obtain ⟨t, ht⟩ : ∃ t : Fin cfg1.N, t.val = (i 0).val / 256 :=
    ⟨⟨(i 0).val / 256, by show (i 0).val / 256 < 8; omega⟩, rfl⟩
  obtain ⟨e0, e1, e2, e3, e4, e5, e6, e7, e8, e9⟩ := idx_facts t
  refine ⟨t, flush1_4 t, ?_⟩
  rw [mem_blk]
  intro a
  match a with
  | ⟨0, _⟩ =>
    show win1_4.index t (0 : Fin 2) * 256 ≤ (i 0).val ∧ (i 0).val < win1_4.index t (0 : Fin 2) * 256 + 256
    omega
  | ⟨1, _⟩ =>
    show win1_4.index t (1 : Fin 2) * 1024 ≤ (i 1).val ∧ (i 1).val < win1_4.index t (1 : Fin 2) * 1024 + 1024
    omega

end Mlp

/-- After the second region its output array holds the three matrix products in a row of the arrays the region
    found: each grid point writes back rows `256·t … 256·t + 255`, and the 8 points cover all 2048 rows. -/
theorem mlp_arr (c : Dev nD) :
    (dat1 V c).arrAt 4 cfg1.N
      = Cert.Spec.mm (M := 2048) (K := 2048) (N := 1024)
          (Cert.Spec.mm (M := 2048) (K := 2048) (N := 2048)
            (Cert.Spec.mm (M := 2048) (K := 512) (N := 2048) (V c main_v55) (V c main_v56)) (V c main_v57))
          (V c main_v58) :=
  (dat1 V c).arrAt_eq_of_cover 4 (Mlp.chain (V c main_v55) (V c main_v56) (V c main_v57) (V c main_v58))
    (fun t _ => Mlp.flushed_eq V c t) Mlp.covered

end Cert.KernelIdeal.KV

end
-- ==== Proof.KerTerms.lean ====
/-
  The host-side chains both programs share, each as ONE function of the argument arrays.

  `hashRem a b` is jnp's floored remainder of an integer array by a scalar (the truncated remainder, moved by the
  divisor where its sign differs from the divisor's). `embedding x hw` is the hashed embedding: for history entry
  `x (b, l)` and each of 16 chunks, a start position `((1000003·x + 193939·chunk + 7919) mod (2³¹ − 1)) mod 1999968`
  in the hashed table `hw`, 32 consecutive table entries from there (a negative position counted from the table's
  end), the 16 × 32 entries laid out as one row of 512, and the whole row zero where `x (b, l) = 0`.
  `gathered₁ … gathered₃ hw idx` are the three weight matrices: the table's entries at the positions `idx` names (a
  negative position counted from the table's end). The certificate never looks inside these functions: both programs
  apply the same operations to the same arguments, and what matters downstream is only the arrays they return.
-/
import proofs.«139206_j5952824673078_1_alg».proof.Proof.Gen.KernelIdeal

noncomputable section

namespace Cert.KernelIdeal.Shared

open Cert.KernelIdeal Cert.KernelIdeal.Gen Idealize.ShloMosaic

variable {F : FTy → Type} [FloatOps F]

/-- jnp's `remainder` of an integer array by a scalar. -/
def hashRem (a : IVec S2048x50x16 32) (b : IVec S_ 32) : IVec S2048x50x16 32 :=
  let d : IVec S_ 32 := select (cmpi .eq (id b) (constantI S_ 32 0#32)) (constantI S_ 32 1#32) (id b)
  let r : IVec S2048x50x16 32 := Host.remsi a (broadcastInDim S2048x50x16 ![] bcast_S_S2048x50x16 d)
  select
    (andi
      (cmpi .ne (cmpi .slt r (broadcastInDim S2048x50x16 ![] bcast_S_S2048x50x16 (constantI S_ 32 0#32)))
        (broadcastInDim S2048x50x16 ![] bcast_S_S2048x50x16 (cmpi .slt d (constantI S_ 32 0#32))))
      (cmpi .ne r (broadcastInDim S2048x50x16 ![] bcast_S_S2048x50x16 (constantI S_ 32 0#32))))
    (addi r (broadcastInDim S2048x50x16 ![] bcast_S_S2048x50x16 d))
    r

/-- The start position of each chunk of each history entry's row in the hashed table. -/
def chunkStart (x : IVec S2048x50 32) : IVec S2048x50x16 32 :=
  hashRem
    (hashRem
      (addi
        (addi
          (broadcastInDim S2048x50x16 ![0, 1, 2] bcast_S2048x50x1_S2048x50x16_0_1_2
            (muli (broadcastInDim S2048x50x1 ![] bcast_S_S2048x50x1 (constantI S_ 32 1000003#32))
              (broadcastInDim S2048x50x1 ![0, 1] bcast_S2048x50_S2048x50x1_0_1 x)))
          (broadcastInDim S2048x50x16 ![0, 1, 2] bcast_S1x1x16_S2048x50x16_0_1_2
            (broadcastInDim S1x1x16 ![2] bcast_S16_S1x1x16_2
              (muli (broadcastInDim S16 ![] bcast_S_S16 (constantI S_ 32 193939#32)) (iotaInDim S16 32 0)))))
        (broadcastInDim S2048x50x16 ![] bcast_S_S2048x50x16 (constantI S_ 32 7919#32)))
      (constantI S_ 32 2147483647#32))
    (constantI S_ 32 1999968#32)

/-- The table positions of all 16 × 32 entries of each history entry's row, a negative one counted from the end. -/
def rowPositions (x : IVec S2048x50 32) : IVec S2048x50x16x32 32 :=
  let p : IVec S2048x50x16x32 32 :=
    addi
      (broadcastInDim S2048x50x16x32 ![0, 1, 2, 3] bcast_S2048x50x16x1_S2048x50x16x32_0_1_2_3
        (broadcastInDim S2048x50x16x1 ![0, 1, 2] bcast_S2048x50x16_S2048x50x16x1_0_1_2 (chunkStart x)))
      (broadcastInDim S2048x50x16x32 ![0, 1, 2, 3] bcast_S1x1x1x32_S2048x50x16x32_0_1_2_3
        (broadcastInDim S1x1x1x32 ![3] bcast_S32_S1x1x1x32_3 (iotaInDim S32 32 0)))
  select (cmpi .slt p (broadcastInDim S2048x50x16x32 ![] bcast_S_S2048x50x16x32 (constantI S_ 32 0#32)))
    (addi p (broadcastInDim S2048x50x16x32 ![] bcast_S_S2048x50x16x32 (constantI S_ 32 2000000#32)))
    p

/-- The hashed embedding: one row of 512 table entries per history entry, zero where the entry is 0. -/
def embedding (x : IVec S2048x50 32) (hw : FVec F S2000000 .f32) : FVec F S2048x50x512 .f32 :=
  select
    (broadcastInDim S2048x50x512 ![0, 1, 2] bcast_S2048x50x1_S2048x50x512_0_1_2
      (broadcastInDim S2048x50x1 ![0, 1] bcast_S2048x50_S2048x50x1_0_1
        (cmpi .eq x (broadcastInDim S2048x50 ![] bcast_S_S2048x50 (constantI S_ 32 0#32)))))
    (broadcastInDim S2048x50x512 ![] bcast_S_S2048x50x512 (id (constant S_ .f32 0x00000000#32)))
    (fun i => shapeCast S2048x50x512
      (Host.gather gather_S2000000_S2048x50x16x32x1_S2048x50x16x32_n_0_n_n_0_4_1 hw
        (broadcastInDim S2048x50x16x32x1 ![0, 1, 2, 3] bcast_S2048x50x16x32_S2048x50x16x32x1_0_1_2_3 (rowPositions x)))
      shapeCasts_S2048x50x16x32_S2048x50x512 i)

/-- The first weight matrix: the table's entries at the positions `idx` names. -/
def gathered₁ (hw : FVec F S2000000 .f32) (idx : IVec S512x2048 32) : FVec F S512x2048 .f32 :=
  Host.gather gather_S2000000_S512x2048x1_S512x2048_n_0_n_n_0_2_1 hw
    (broadcastInDim S512x2048x1 ![0, 1] bcast_S512x2048_S512x2048x1_0_1
      (select (cmpi .slt idx (broadcastInDim S512x2048 ![] bcast_S_S512x2048 (constantI S_ 32 0#32)))
        (addi idx (broadcastInDim S512x2048 ![] bcast_S_S512x2048 (constantI S_ 32 2000000#32)))
        idx))

/-- The second weight matrix. -/
def gathered₂ (hw : FVec F S2000000 .f32) (idx : IVec S2048x2048 32) : FVec F S2048x2048 .f32 :=
  Host.gather gather_S2000000_S2048x2048x1_S2048x2048_n_0_n_n_0_2_1 hw
    (broadcastInDim S2048x2048x1 ![0, 1] bcast_S2048x2048_S2048x2048x1_0_1
      (select (cmpi .slt idx (broadcastInDim S2048x2048 ![] bcast_S_S2048x2048 (constantI S_ 32 0#32)))
        (addi idx (broadcastInDim S2048x2048 ![] bcast_S_S2048x2048 (constantI S_ 32 2000000#32)))
        idx))

/-- The third weight matrix. -/
def gathered₃ (hw : FVec F S2000000 .f32) (idx : IVec S2048x1000 32) : FVec F S2048x1000 .f32 :=
  Host.gather gather_S2000000_S2048x1000x1_S2048x1000_n_0_n_n_0_2_1 hw
    (broadcastInDim S2048x1000x1 ![0, 1] bcast_S2048x1000_S2048x1000x1_0_1
      (select (cmpi .slt idx (broadcastInDim S2048x1000 ![] bcast_S_S2048x1000 (constantI S_ 32 0#32)))
        (addi idx (broadcastInDim S2048x1000 ![] bcast_S_S2048x1000 (constantI S_ 32 2000000#32)))
        idx))

end Cert.KernelIdeal.Shared

end
-- ==== Proof.KerHost.lean ====
/- The buffer contents at the boundaries of @main's segments, read back through the host stretches to the
   argument arrays: what each region finds in the arrays it reads, and the result as a slice of the second region's
   output. -/
import proofs.«139206_j5952824673078_1_alg».proof.Proof.Gen.KernelIdeal.Frame
import proofs.«139206_j5952824673078_1_alg».proof.Proof.Spec
import proofs.«139206_j5952824673078_1_alg».proof.Proof.KerTerms
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- None of a stretch's operations writes the buffer: each writes one buffer, and that buffer is another
    reference. -/
local macro "no_write" : tactic =>
  `(tactic| (refine List.forall_iff_forall_mem.mp ?_
             simp only [hostOps0, hostOps0_1, hostOps0_2, hostOps0_3, hostOps0_4, hostOps0_5, hostOps1, hostOps1_1,
               hostOps1_2, hostOps2, List.Forall, StableHlo.nullary_writes, StableHlo.unary_writes,
               StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- Such a buffer holds after the stretch what it held before. -/
local macro "stretch_keeps" : tactic => `(tactic| exact StableHlo.after_of_forall_not_mem _ _ (by no_write))

/-- A buffer that no operation before the first region writes, and that is none of the region's arrays, still holds
    the launch contents when the region has run. -/
private theorem W7_of_unwritten (c : Dev nD) (b : Ref sig .tc) (hb : ∀ w, Pipeline.arrRef spec0 w ≠ b)
    (h5 : ∀ op ∈ (hostOps0_5 : List (HloOp τ sig (Elt Ideal))), Proc.devRef .tc b ∉ op.writes)
    (h4 : ∀ op ∈ (hostOps0_4 : List (HloOp τ sig (Elt Ideal))), Proc.devRef .tc b ∉ op.writes)
    (h3 : ∀ op ∈ (hostOps0_3 : List (HloOp τ sig (Elt Ideal))), Proc.devRef .tc b ∉ op.writes)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W7 m ρ c (Proc.devRef .tc b) = m ((c : Thread nD τ).loc b) :=
  calc W7 m ρ c (Proc.devRef .tc b)
    _ = W6 m ρ c (Proc.devRef .tc b) := W7_of_ne m ρ c b hb
    _ = W5 m ρ c (Proc.devRef .tc b) := StableHlo.after_of_forall_not_mem _ _ h5
    _ = W4 m ρ c (Proc.devRef .tc b) := StableHlo.after_of_forall_not_mem _ _ h4
    _ = W3 m ρ c (Proc.devRef .tc b) := StableHlo.after_of_forall_not_mem _ _ h3
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- The hashed table and the three index arguments, when the first region has run, are the launch's. -/
private theorem W7_arg2 (c : Dev nD) : W7 m ρ c (Proc.devRef .tc main_arg2) = m ((c : Thread nD τ).loc main_arg2) :=
  W7_of_unwritten m ρ c main_arg2 (by decide) (by no_write) (by no_write) (by no_write) (by no_write) (by no_write) (by no_write)
private theorem W7_arg3 (c : Dev nD) : W7 m ρ c (Proc.devRef .tc main_arg3) = m ((c : Thread nD τ).loc main_arg3) :=
  W7_of_unwritten m ρ c main_arg3 (by decide) (by no_write) (by no_write) (by no_write) (by no_write) (by no_write) (by no_write)
private theorem W7_arg4 (c : Dev nD) : W7 m ρ c (Proc.devRef .tc main_arg4) = m ((c : Thread nD τ).loc main_arg4) :=
  W7_of_unwritten m ρ c main_arg4 (by decide) (by no_write) (by no_write) (by no_write) (by no_write) (by no_write) (by no_write)
private theorem W7_arg5 (c : Dev nD) : W7 m ρ c (Proc.devRef .tc main_arg5) = m ((c : Thread nD τ).loc main_arg5) :=
  W7_of_unwritten m ρ c main_arg5 (by decide) (by no_write) (by no_write) (by no_write) (by no_write) (by no_write) (by no_write)

/-! ## The stretches before the first region, one at a time

Each stretch is read over an arbitrary valuation `V` of the buffers: what it leaves in the buffers the next stretch
reads, as the shared host functions of what `V` held. -/

section Stages

variable {F : FTy → Type} [FloatOps F] (V : Valuation τ sig (Elt F))

/-- The number hashed for each chunk of each history entry: `1000003 · x + 193939 · chunk + 7919`. -/
private def hashArg (x : IVec S2048x50 32) : IVec S2048x50x16 32 :=
  addi
    (addi
      (broadcastInDim S2048x50x16 ![0, 1, 2] bcast_S2048x50x1_S2048x50x16_0_1_2
        (muli (broadcastInDim S2048x50x1 ![] bcast_S_S2048x50x1 (constantI S_ 32 1000003#32))
          (broadcastInDim S2048x50x1 ![0, 1] bcast_S2048x50_S2048x50x1_0_1 x)))
      (broadcastInDim S2048x50x16 ![0, 1, 2] bcast_S1x1x16_S2048x50x16_0_1_2
        (broadcastInDim S1x1x16 ![2] bcast_S16_S1x1x16_2
          (muli (broadcastInDim S16 ![] bcast_S_S16 (constantI S_ 32 193939#32)) (iotaInDim S16 32 0)))))
    (broadcastInDim S2048x50x16 ![] bcast_S_S2048x50x16 (constantI S_ 32 7919#32))

/-- The chunk starts are that number reduced twice. -/
private theorem chunkStart_eq (x : IVec S2048x50 32) :
    Shared.chunkStart x
      = Shared.hashRem (Shared.hashRem (hashArg x) (constantI S_ 32 2147483647#32)) (constantI S_ 32 1999968#32) := rfl

/-- The table positions of a row's entries from its chunk starts: 32 consecutive ones from each start, a negative
    one counted from the table's end. -/
private def rowPos (s : IVec S2048x50x16 32) : IVec S2048x50x16x32 32 :=
  let p : IVec S2048x50x16x32 32 :=
    addi
      (broadcastInDim S2048x50x16x32 ![0, 1, 2, 3] bcast_S2048x50x16x1_S2048x50x16x32_0_1_2_3
        (broadcastInDim S2048x50x16x1 ![0, 1, 2] bcast_S2048x50x16_S2048x50x16x1_0_1_2 s))
      (broadcastInDim S2048x50x16x32 ![0, 1, 2, 3] bcast_S1x1x1x32_S2048x50x16x32_0_1_2_3
        (broadcastInDim S1x1x1x32 ![3] bcast_S32_S1x1x1x32_3 (iotaInDim S32 32 0)))
  select (cmpi .slt p (broadcastInDim S2048x50x16x32 ![] bcast_S_S2048x50x16x32 (constantI S_ 32 0#32)))
    (addi p (broadcastInDim S2048x50x16x32 ![] bcast_S_S2048x50x16x32 (constantI S_ 32 2000000#32)))
    p

private theorem rowPositions_eq (x : IVec S2048x50 32) : Shared.rowPositions x = rowPos (Shared.chunkStart x) := rfl

/-- The first stretch leaves the hashed number and the first modulus. -/
private theorem stage0_v11 :
    (StableHlo.after hostOps0 V (Proc.devRef .tc main_v11) : IVec S2048x50x16 32)
      = hashArg (V (Proc.devRef .tc main_arg0)) := by
  after_results_simp
  rfl
private theorem stage0_c2 :
    (StableHlo.after hostOps0 V (Proc.devRef .tc main_c_2) : IVec S_ 32) = constantI S_ 32 2147483647#32 := by
  after_results_simp

attribute [local irreducible] Host.remsi in
/-- The first remainder call. -/
private theorem stage1_v12 :
    (StableHlo.after hostOps0_1 V (Proc.devRef .tc main_v12) : IVec S2048x50x16 32)
      = Shared.hashRem (V (Proc.devRef .tc main_v11)) (V (Proc.devRef .tc main_c_2)) := by
  after_results_simp
  rfl

/-- The second modulus. -/
private theorem stage2_c3 :
    (StableHlo.after hostOps0_2 V (Proc.devRef .tc main_c_3) : IVec S_ 32) = constantI S_ 32 1999968#32 := by
  after_results_simp

attribute [local irreducible] Host.remsi in
/-- The second remainder call. -/
private theorem stage3_v13 :
    (StableHlo.after hostOps0_3 V (Proc.devRef .tc main_v13) : IVec S2048x50x16 32)
      = Shared.hashRem (V (Proc.devRef .tc main_v12)) (V (Proc.devRef .tc main_c_3)) := by
  after_results_simp
  rfl

attribute [local irreducible] Host.gather in
/-- The gather at the rows' positions, laid out as rows of 512; the mask of the zero entries; the zero. -/
private theorem stage4_v27 :
    (StableHlo.after hostOps0_4 V (Proc.devRef .tc main_v27) : FVec F S2048x50x512 .f32)
      = fun i => shapeCast S2048x50x512
          (Host.gather gather_S2000000_S2048x50x16x32x1_S2048x50x16x32_n_0_n_n_0_4_1 (V (Proc.devRef .tc main_arg2))
            (broadcastInDim S2048x50x16x32x1 ![0, 1, 2, 3] bcast_S2048x50x16x32_S2048x50x16x32x1_0_1_2_3
              (rowPos (V (Proc.devRef .tc main_v13)))))
          shapeCasts_S2048x50x16x32_S2048x50x512 i := by
  after_results_simp
  rfl
private theorem stage4_v30 :
    (StableHlo.after hostOps0_4 V (Proc.devRef .tc main_v30) : IVec S2048x50x1 1)
      = broadcastInDim S2048x50x1 ![0, 1] bcast_S2048x50_S2048x50x1_0_1
          (cmpi .eq (V (Proc.devRef .tc main_arg0) : IVec S2048x50 32)
            (broadcastInDim S2048x50 ![] bcast_S_S2048x50 (constantI S_ 32 0#32))) := by
  after_results_simp
private theorem stage4_cst :
    (StableHlo.after hostOps0_4 V (Proc.devRef .tc main_cst) : FVec F S_ .f32) = constant S_ .f32 0x00000000#32 := by
  after_results_simp

/-- The where call: the zero where the mask holds, the gathered row elsewhere. -/
private theorem stage5_v31 :
    (StableHlo.after hostOps0_5 V (Proc.devRef .tc main_v31) : FVec F S2048x50x512 .f32)
      = select
          (broadcastInDim S2048x50x512 ![0, 1, 2] bcast_S2048x50x1_S2048x50x512_0_1_2
            (V (Proc.devRef .tc main_v30) : IVec S2048x50x1 1))
          (broadcastInDim S2048x50x512 ![] bcast_S_S2048x50x512 (id (V (Proc.devRef .tc main_cst) : FVec F S_ .f32)))
          (V (Proc.devRef .tc main_v27)) := by
  after_results_simp
  rfl

end Stages

attribute [local irreducible] Host.gather Host.remsi pad in
/-- The first region finds the hashed embedding of the arguments in its first operand's array … -/
theorem V6_v31 (c : Dev nD) :
    (V6 m ρ c main_v31 : Cert.Spec.Cube 2048 50 512)
      = Shared.embedding (F := Ideal) (m ((c : Thread nD τ).loc main_arg0)) (m ((c : Thread nD τ).loc main_arg2)) := by
  -- the two arguments the chain reads are still the launch's where it reads them
  have a0 : W4 m ρ c (Proc.devRef .tc main_arg0) = m ((c : Thread nD τ).loc main_arg0) :=
    calc W4 m ρ c (Proc.devRef .tc main_arg0)
      _ = W3 m ρ c (Proc.devRef .tc main_arg0) := by stretch_keeps
      _ = W2 m ρ c (Proc.devRef .tc main_arg0) := by stretch_keeps
      _ = W1 m ρ c (Proc.devRef .tc main_arg0) := by stretch_keeps
      _ = W0 m ρ c (Proc.devRef .tc main_arg0) := by stretch_keeps
      _ = m ((c : Thread nD τ).loc main_arg0) := rfl
  have a2 : W4 m ρ c (Proc.devRef .tc main_arg2) = m ((c : Thread nD τ).loc main_arg2) :=
    calc W4 m ρ c (Proc.devRef .tc main_arg2)
      _ = W3 m ρ c (Proc.devRef .tc main_arg2) := by stretch_keeps
      _ = W2 m ρ c (Proc.devRef .tc main_arg2) := by stretch_keeps
      _ = W1 m ρ c (Proc.devRef .tc main_arg2) := by stretch_keeps
      _ = W0 m ρ c (Proc.devRef .tc main_arg2) := by stretch_keeps
      _ = m ((c : Thread nD τ).loc main_arg2) := rfl
  -- the first remainder of the hashed number …
  have r1 : (W3 m ρ c (Proc.devRef .tc main_v12) : IVec S2048x50x16 32)
      = Shared.hashRem (hashArg (m ((c : Thread nD τ).loc main_arg0))) (constantI S_ 32 2147483647#32) :=
    calc (W3 m ρ c (Proc.devRef .tc main_v12) : IVec S2048x50x16 32)
      _ = W2 m ρ c (Proc.devRef .tc main_v12) := by stretch_keeps
      _ = Shared.hashRem (W1 m ρ c (Proc.devRef .tc main_v11)) (W1 m ρ c (Proc.devRef .tc main_c_2)) :=
          stage1_v12 (W1 m ρ c)
      _ = Shared.hashRem (hashArg (m ((c : Thread nD τ).loc main_arg0))) (constantI S_ 32 2147483647#32) :=
          congrArg₂ Shared.hashRem (stage0_v11 (W0 m ρ c)) (stage0_c2 (W0 m ρ c))
  -- … and the second: the chunk starts
  have s : (W4 m ρ c (Proc.devRef .tc main_v13) : IVec S2048x50x16 32)
      = Shared.chunkStart (m ((c : Thread nD τ).loc main_arg0)) :=
    calc (W4 m ρ c (Proc.devRef .tc main_v13) : IVec S2048x50x16 32)
      _ = Shared.hashRem (W3 m ρ c (Proc.devRef .tc main_v12)) (W3 m ρ c (Proc.devRef .tc main_c_3)) :=
          stage3_v13 (W3 m ρ c)
      _ = Shared.hashRem (Shared.hashRem (hashArg (m ((c : Thread nD τ).loc main_arg0))) (constantI S_ 32 2147483647#32))
            (constantI S_ 32 1999968#32) := congrArg₂ Shared.hashRem r1 (stage2_c3 (W2 m ρ c))
      _ = Shared.chunkStart (m ((c : Thread nD τ).loc main_arg0)) := (chunkStart_eq _).symm
  -- what the where call reads
  have e27 : (W5 m ρ c (Proc.devRef .tc main_v27) : FVec Ideal S2048x50x512 .f32)
      = fun i => shapeCast S2048x50x512
          (Host.gather gather_S2000000_S2048x50x16x32x1_S2048x50x16x32_n_0_n_n_0_4_1 (m ((c : Thread nD τ).loc main_arg2))
            (broadcastInDim S2048x50x16x32x1 ![0, 1, 2, 3] bcast_S2048x50x16x32_S2048x50x16x32x1_0_1_2_3
              (Shared.rowPositions (m ((c : Thread nD τ).loc main_arg0)))))
          shapeCasts_S2048x50x16x32_S2048x50x512 i := by
    rw [rowPositions_eq, ← s, ← a2]
    exact stage4_v27 (W4 m ρ c)
  have e30 : (W5 m ρ c (Proc.devRef .tc main_v30) : IVec S2048x50x1 1)
      = broadcastInDim S2048x50x1 ![0, 1] bcast_S2048x50_S2048x50x1_0_1
          (cmpi .eq (m ((c : Thread nD τ).loc main_arg0) : IVec S2048x50 32)
            (broadcastInDim S2048x50 ![] bcast_S_S2048x50 (constantI S_ 32 0#32))) := by
    rw [← a0]
    exact stage4_v30 (W4 m ρ c)
  have ecst : (W5 m ρ c (Proc.devRef .tc main_cst) : FVec Ideal S_ .f32)
      = constant (F := Ideal) S_ .f32 0x00000000#32 :=
    stage4_cst (W4 m ρ c)
  calc (V6 m ρ c main_v31 : Cert.Spec.Cube 2048 50 512)
    _ = select
          (broadcastInDim S2048x50x512 ![0, 1, 2] bcast_S2048x50x1_S2048x50x512_0_1_2
            (W5 m ρ c (Proc.devRef .tc main_v30) : IVec S2048x50x1 1))
          (broadcastInDim S2048x50x512 ![] bcast_S_S2048x50x512
            (id (W5 m ρ c (Proc.devRef .tc main_cst) : FVec Ideal S_ .f32)))
          (W5 m ρ c (Proc.devRef .tc main_v27)) := stage5_v31 (W5 m ρ c)
    _ = Shared.embedding (F := Ideal) (m ((c : Thread nD τ).loc main_arg0)) (m ((c : Thread nD τ).loc main_arg2)) := by
        rw [e27, e30, ecst]
        rfl

/-- … and the weights argument itself in its second. -/
theorem V6_arg1 (c : Dev nD) :
    (V6 m ρ c main_arg1 : Cert.Spec.Mat 2048 50) = m ((c : Thread nD τ).loc main_arg1) :=
  calc W6 m ρ c (Proc.devRef .tc main_arg1)
    _ = W5 m ρ c (Proc.devRef .tc main_arg1) := by stretch_keeps
    _ = W4 m ρ c (Proc.devRef .tc main_arg1) := by stretch_keeps
    _ = W3 m ρ c (Proc.devRef .tc main_arg1) := by stretch_keeps
    _ = W2 m ρ c (Proc.devRef .tc main_arg1) := by stretch_keeps
    _ = W1 m ρ c (Proc.devRef .tc main_arg1) := by stretch_keeps
    _ = W0 m ρ c (Proc.devRef .tc main_arg1) := by stretch_keeps
    _ = m ((c : Thread nD τ).loc main_arg1) := rfl

/-- The second region's first operand is the first region's output array (a change of float format is the identity
    on extended reals). -/
theorem V10_v55 (c : Dev nD) :
    (V10 m ρ c main_v55 : Cert.Spec.Mat 2048 512) = W7 m ρ c (Proc.devRef .tc main_v32) := by
  -- the last stretch changes the float format of what the pad call's stretch left, which is the region's output
  have e : (V10 m ρ c main_v55 : Cert.Spec.Mat 2048 512) = W9 m ρ c (Proc.devRef .tc main_v32) := by
    show StableHlo.after hostOps1_2 (W9 m ρ c) (Proc.devRef .tc main_v55) = _
    after_results
    rfl
  rw [e]
  calc W9 m ρ c (Proc.devRef .tc main_v32)
    _ = W8 m ρ c (Proc.devRef .tc main_v32) := by stretch_keeps
    _ = W7 m ρ c (Proc.devRef .tc main_v32) := by stretch_keeps

attribute [local irreducible] Host.gather Host.remsi pad in
/-- Its second, third and fourth operands are the three gathered weight matrices, the third padded with 24 columns. -/
theorem V10_v56 (c : Dev nD) :
    (V10 m ρ c main_v56 : Cert.Spec.Mat 512 2048)
      = Shared.gathered₁ (F := Ideal) (m ((c : Thread nD τ).loc main_arg2)) (m ((c : Thread nD τ).loc main_arg3)) := by
  have e : (V10 m ρ c main_v56 : Cert.Spec.Mat 512 2048)
      = Shared.gathered₁ (F := Ideal) (W7 m ρ c (Proc.devRef .tc main_arg2)) (W7 m ρ c (Proc.devRef .tc main_arg3)) := by
    show StableHlo.after hostOps1_2 (StableHlo.after hostOps1_1 (StableHlo.after hostOps1 (W7 m ρ c)))
      (Proc.devRef .tc main_v56) = _
    after_results_simp
    rfl
  rw [e, W7_arg2, W7_arg3]

attribute [local irreducible] Host.gather Host.remsi pad in
theorem V10_v57 (c : Dev nD) :
    (V10 m ρ c main_v57 : Cert.Spec.Mat 2048 2048)
      = Shared.gathered₂ (F := Ideal) (m ((c : Thread nD τ).loc main_arg2)) (m ((c : Thread nD τ).loc main_arg4)) := by
  have e : (V10 m ρ c main_v57 : Cert.Spec.Mat 2048 2048)
      = Shared.gathered₂ (F := Ideal) (W7 m ρ c (Proc.devRef .tc main_arg2)) (W7 m ρ c (Proc.devRef .tc main_arg4)) := by
    show StableHlo.after hostOps1_2 (StableHlo.after hostOps1_1 (StableHlo.after hostOps1 (W7 m ρ c)))
      (Proc.devRef .tc main_v57) = _
    after_results_simp
    rfl
  rw [e, W7_arg2, W7_arg4]

attribute [local irreducible] Host.gather Host.remsi pad in
theorem V10_v58 (c : Dev nD) :
    (V10 m ρ c main_v58 : Cert.Spec.Mat 2048 1024)
      = pad S2048x1024 ![0, 0] ![0, 24] ![0, 0]
          (Shared.gathered₃ (F := Ideal) (m ((c : Thread nD τ).loc main_arg2)) (m ((c : Thread nD τ).loc main_arg5)))
          (sitofp (F := Ideal) .f32 (constantI S_ 32 0#32)) pads_S2048x1000_S2048x1024_000_0240 h_S_ := by
  have e : (V10 m ρ c main_v58 : Cert.Spec.Mat 2048 1024)
      = pad S2048x1024 ![0, 0] ![0, 24] ![0, 0]
          (Shared.gathered₃ (F := Ideal) (W7 m ρ c (Proc.devRef .tc main_arg2)) (W7 m ρ c (Proc.devRef .tc main_arg5)))
          (sitofp (F := Ideal) .f32 (constantI S_ 32 0#32)) pads_S2048x1000_S2048x1024_000_0240 h_S_ := by
    show StableHlo.after hostOps1_2 (StableHlo.after hostOps1_1 (StableHlo.after hostOps1 (W7 m ρ c)))
      (Proc.devRef .tc main_v58) = _
    after_results_simp
    rfl
  rw [e, W7_arg2, W7_arg5]

/-- The result array is the second region's output array cut to its first 1000 columns. -/
theorem W12_v60 (c : Dev nD) :
    (W12 m ρ c (Proc.devRef .tc main_v60) : Cert.Spec.Mat 2048 1000)
      = extractStridedSlice S2048x1000 ![0, 0] (W11 m ρ c (Proc.devRef .tc main_v59) : Cert.Spec.Mat 2048 1024)
          slices_S2048x1024_S2048x1000_0_0 := by
  show StableHlo.after hostOps2 (W11 m ρ c) (Proc.devRef .tc main_v60) = _
  after_results

end Cert.KernelIdeal.KV

end
-- ==== Proof.KerValue.lean ====
/-
  The kernel's result array as the specification of the shared chains' arrays.

  The result is the first 1000 columns of the second region's output. That output is three matrix products in a row
  of what the region finds: the first region's output (the pool of the hashed embedding with the weights), the first
  two gathered weight matrices, and the third one with 24 columns appended. A product's entry in column `q` reads
  only column `q` of its right factor, and below column 1000 the widened matrix is the gathered one, so cutting the
  product back to 1000 columns gives the product with the gathered matrix itself: the appended columns (and whatever
  value fills them) never reach a kept entry.
-/
import proofs.«139206_j5952824673078_1_alg».proof.Proof.KerPool
import proofs.«139206_j5952824673078_1_alg».proof.Proof.KerMlp
import proofs.«139206_j5952824673078_1_alg».proof.Proof.KerHost
import Idealize.ShloMosaic.Lib.KernelVsHost
import Idealize.ShloMosaic.Lib.Pipeline.Value

set_option maxRecDepth 16384

noncomputable section

namespace Cert.KernelIdeal.KV

open Cert.KernelIdeal Cert.KernelIdeal.Gen Idealize.ShloMosaic Idealize.ShloMosaic.TcCoe Idealize.SL.Sem
open Idealize.ShloMosaic.ValueIdx

/-- A matrix with 24 columns appended on the right, read in one of its own 1000 columns, is the matrix there,
    whatever fills the new columns. -/
theorem widened_cols (x : FVec Ideal S2048x1000 .f32) (v : FVec Ideal S_ .f32) (k : Fin 2048) (q : Fin 1000) :
    pad S2048x1024 ![0, 0] ![0, 24] ![0, 0] x v pads_S2048x1000_S2048x1024_000_0240 h_S_
        (ix2 k (⟨q.val, lt_of_lt_of_le q.isLt (by decide)⟩ : Fin 1024))
      = x (ix2 k q) := by
  refine pad_apply_of_inside _ _ _ x v _ _ _ (ix2 k q) fun a => ?_
  match a with
  | ⟨0, _⟩ => show k.val = 0 + k.val * (0 + 1); omega
  | ⟨1, _⟩ => show q.val = 0 + q.val * (0 + 1); omega

variable (m : (ℓ : Loc nD τ sig) → Buf (Elt Ideal) ℓ) (ρ : Dev nD → PrngReg)

/-- The result array after the run's last segment is `Spec.out` of the hashed embedding, the weights and the three
    gathered matrices of the argument arrays. -/
theorem result_eq (c : Dev nD) :
    (W12 m ρ c (Proc.devRef .tc main_v60) : Cert.Spec.Mat 2048 1000)
      = Cert.Spec.out
          (Shared.embedding (F := Ideal) (m ((c : Thread nD τ).loc main_arg0)) (m ((c : Thread nD τ).loc main_arg2)))
          (m ((c : Thread nD τ).loc main_arg1))
          (Shared.gathered₁ (F := Ideal) (m ((c : Thread nD τ).loc main_arg2)) (m ((c : Thread nD τ).loc main_arg3)))
          (Shared.gathered₂ (F := Ideal) (m ((c : Thread nD τ).loc main_arg2)) (m ((c : Thread nD τ).loc main_arg4)))
          (Shared.gathered₃ (F := Ideal) (m ((c : Thread nD τ).loc main_arg2)) (m ((c : Thread nD τ).loc main_arg5))) := by
  funext j
  obtain ⟨p, q, rfl⟩ : ∃ (p : Fin 2048) (q : Fin 1000), j = ix2 p q := ⟨j 0, j 1, eq_ix2 j⟩
  -- the result is the second region's output cut to its first 1000 columns
  rw [W12_v60 m ρ c]
  refine (extractStridedSlice_apply _ _ _ (ix2 p q)
    (ix2 p (⟨q.val, lt_of_lt_of_le q.isLt (by decide)⟩ : Fin 1024)) fun a => ?_).trans ?_
  · match a with
    | ⟨0, _⟩ => show p.val = 0 + p.val; omega
    | ⟨1, _⟩ => show q.val = 0 + q.val; omega
  -- that output is the three products of what the region found
  have h59 : W11 m ρ c (Proc.devRef .tc main_v59) = (dat1 (V10 m ρ) c).arrAt 4 cfg1.N := W11_arr m ρ c 4
  rw [h59, mlp_arr (V10 m ρ) c, V10_v55 m ρ c, V10_v56 m ρ c, V10_v57 m ρ c, V10_v58 m ρ c]
  -- the first factor is the first region's output: the pool of the embedding with the weights
  have h32 : W7 m ρ c (Proc.devRef .tc main_v32) = (dat0 (V6 m ρ) c).arrAt 2 cfg0.N := W7_arr m ρ c 2
  rw [h32, pool_arr (V6 m ρ) c, V6_v31 m ρ c, V6_arg1 m ρ c]
  -- the appended columns never reach a kept column of the last product
  exact Cert.Spec.mm_cols _ _ _ (by decide) (fun k q => widened_cols _ _ k q) p q

end Cert.KernelIdeal.KV

end
-- ==== Proof.RefTerms.lean ====
/-
  The host-side chains both programs share, each as ONE function of the argument arrays.

  `hashRem a b` is jnp's floored remainder of an integer array by a scalar (the truncated remainder, moved by the
  divisor where its sign differs from the divisor's). `embedding x hw` is the hashed embedding: for history entry
  `x (b, l)` and each of 16 chunks, a start position `((1000003·x + 193939·chunk + 7919) mod (2³¹ − 1)) mod 1999968`
  in the hashed table `hw`, 32 consecutive table entries from there (a negative position counted from the table's
  end), the 16 × 32 entries laid out as one row of 512, and the whole row zero where `x (b, l) = 0`.
  `gathered₁ … gathered₃ hw idx` are the three weight matrices: the table's entries at the positions `idx` names (a
  negative position counted from the table's end). The certificate never looks inside these functions: both programs
  apply the same operations to the same arguments, and what matters downstream is only the arrays they return.
-/
import proofs.«139206_j5952824673078_1_alg».proof.Proof.Gen.ReferenceIdeal

noncomputable section

namespace Cert.ReferenceIdeal.Shared

open Cert.ReferenceIdeal Cert.ReferenceIdeal.Gen Idealize.ShloMosaic

variable {F : FTy → Type} [FloatOps F]

/-- jnp's `remainder` of an integer array by a scalar. -/
def hashRem (a : IVec S2048x50x16 32) (b : IVec S_ 32) : IVec S2048x50x16 32 :=
  let d : IVec S_ 32 := select (cmpi .eq (id b) (constantI S_ 32 0#32)) (constantI S_ 32 1#32) (id b)
  let r : IVec S2048x50x16 32 := Host.remsi a (broadcastInDim S2048x50x16 ![] bcast_S_S2048x50x16 d)
  select
    (andi
      (cmpi .ne (cmpi .slt r (broadcastInDim S2048x50x16 ![] bcast_S_S2048x50x16 (constantI S_ 32 0#32)))
        (broadcastInDim S2048x50x16 ![] bcast_S_S2048x50x16 (cmpi .slt d (constantI S_ 32 0#32))))
      (cmpi .ne r (broadcastInDim S2048x50x16 ![] bcast_S_S2048x50x16 (constantI S_ 32 0#32))))
    (addi r (broadcastInDim S2048x50x16 ![] bcast_S_S2048x50x16 d))
    r

/-- The start position of each chunk of each history entry's row in the hashed table. -/
def chunkStart (x : IVec S2048x50 32) : IVec S2048x50x16 32 :=
  hashRem
    (hashRem
      (addi
        (addi
          (broadcastInDim S2048x50x16 ![0, 1, 2] bcast_S2048x50x1_S2048x50x16_0_1_2
            (muli (broadcastInDim S2048x50x1 ![] bcast_S_S2048x50x1 (constantI S_ 32 1000003#32))
              (broadcastInDim S2048x50x1 ![0, 1] bcast_S2048x50_S2048x50x1_0_1 x)))
          (broadcastInDim S2048x50x16 ![0, 1, 2] bcast_S1x1x16_S2048x50x16_0_1_2
            (broadcastInDim S1x1x16 ![2] bcast_S16_S1x1x16_2
              (muli (broadcastInDim S16 ![] bcast_S_S16 (constantI S_ 32 193939#32)) (iotaInDim S16 32 0)))))
        (broadcastInDim S2048x50x16 ![] bcast_S_S2048x50x16 (constantI S_ 32 7919#32)))
      (constantI S_ 32 2147483647#32))
    (constantI S_ 32 1999968#32)

/-- The table positions of all 16 × 32 entries of each history entry's row, a negative one counted from the end. -/
def rowPositions (x : IVec S2048x50 32) : IVec S2048x50x16x32 32 :=
  let p : IVec S2048x50x16x32 32 :=
    addi
      (broadcastInDim S2048x50x16x32 ![0, 1, 2, 3] bcast_S2048x50x16x1_S2048x50x16x32_0_1_2_3
        (broadcastInDim S2048x50x16x1 ![0, 1, 2] bcast_S2048x50x16_S2048x50x16x1_0_1_2 (chunkStart x)))
      (broadcastInDim S2048x50x16x32 ![0, 1, 2, 3] bcast_S1x1x1x32_S2048x50x16x32_0_1_2_3
        (broadcastInDim S1x1x1x32 ![3] bcast_S32_S1x1x1x32_3 (iotaInDim S32 32 0)))
  select (cmpi .slt p (broadcastInDim S2048x50x16x32 ![] bcast_S_S2048x50x16x32 (constantI S_ 32 0#32)))
    (addi p (broadcastInDim S2048x50x16x32 ![] bcast_S_S2048x50x16x32 (constantI S_ 32 2000000#32)))
    p

/-- The hashed embedding: one row of 512 table entries per history entry, zero where the entry is 0. -/
def embedding (x : IVec S2048x50 32) (hw : FVec F S2000000 .f32) : FVec F S2048x50x512 .f32 :=
  select
    (broadcastInDim S2048x50x512 ![0, 1, 2] bcast_S2048x50x1_S2048x50x512_0_1_2
      (broadcastInDim S2048x50x1 ![0, 1] bcast_S2048x50_S2048x50x1_0_1
        (cmpi .eq x (broadcastInDim S2048x50 ![] bcast_S_S2048x50 (constantI S_ 32 0#32)))))
    (broadcastInDim S2048x50x512 ![] bcast_S_S2048x50x512 (id (constant S_ .f32 0x00000000#32)))
    (fun i => shapeCast S2048x50x512
      (Host.gather gather_S2000000_S2048x50x16x32x1_S2048x50x16x32_n_0_n_n_0_4_1 hw
        (broadcastInDim S2048x50x16x32x1 ![0, 1, 2, 3] bcast_S2048x50x16x32_S2048x50x16x32x1_0_1_2_3 (rowPositions x)))
      shapeCasts_S2048x50x16x32_S2048x50x512 i)

/-- The first weight matrix: the table's entries at the positions `idx` names. -/
def gathered₁ (hw : FVec F S2000000 .f32) (idx : IVec S512x2048 32) : FVec F S512x2048 .f32 :=
  Host.gather gather_S2000000_S512x2048x1_S512x2048_n_0_n_n_0_2_1 hw
    (broadcastInDim S512x2048x1 ![0, 1] bcast_S512x2048_S512x2048x1_0_1
      (select (cmpi .slt idx (broadcastInDim S512x2048 ![] bcast_S_S512x2048 (constantI S_ 32 0#32)))
        (addi idx (broadcastInDim S512x2048 ![] bcast_S_S512x2048 (constantI S_ 32 2000000#32)))
        idx))

/-- The second weight matrix. -/
def gathered₂ (hw : FVec F S2000000 .f32) (idx : IVec S2048x2048 32) : FVec F S2048x2048 .f32 :=
  Host.gather gather_S2000000_S2048x2048x1_S2048x2048_n_0_n_n_0_2_1 hw
    (broadcastInDim S2048x2048x1 ![0, 1] bcast_S2048x2048_S2048x2048x1_0_1
      (select (cmpi .slt idx (broadcastInDim S2048x2048 ![] bcast_S_S2048x2048 (constantI S_ 32 0#32)))
        (addi idx (broadcastInDim S2048x2048 ![] bcast_S_S2048x2048 (constantI S_ 32 2000000#32)))
        idx))

/-- The third weight matrix. -/
def gathered₃ (hw : FVec F S2000000 .f32) (idx : IVec S2048x1000 32) : FVec F S2048x1000 .f32 :=
  Host.gather gather_S2000000_S2048x1000x1_S2048x1000_n_0_n_n_0_2_1 hw
    (broadcastInDim S2048x1000x1 ![0, 1] bcast_S2048x1000_S2048x1000x1_0_1
      (select (cmpi .slt idx (broadcastInDim S2048x1000 ![] bcast_S_S2048x1000 (constantI S_ 32 0#32)))
        (addi idx (broadcastInDim S2048x1000 ![] bcast_S_S2048x1000 (constantI S_ 32 2000000#32)))
        idx))

end Cert.ReferenceIdeal.Shared

end
-- ==== Proof.RefOut.lean ====
/-
  The reference's result as ONE term of its argument arrays: the hashed embedding times the broadcast weights,
  summed over the history axis from a zero initial value, then three matrix products with the three gathered weight
  matrices — the operations of the reference's @main from the embedding on, composed.
-/
import proofs.«139206_j5952824673078_1_alg».proof.Proof.RefTerms

noncomputable section

namespace Cert.ReferenceIdeal.RV

open Cert.ReferenceIdeal Cert.ReferenceIdeal.Gen Idealize.ShloMosaic

variable {F : FTy → Type} [FloatOps F]

/-- The pooled rows as the reference computes them: `sum(emb * w[:, :, None], axis=1)`. -/
def pooled (x : IVec S2048x50 32) (w : FVec F S2048x50 .f32) (hw : FVec F S2000000 .f32) : FVec F S2048x512 .f32 :=
  Host.reduceAdd
    (mulf (Shared.embedding x hw)
      (broadcastInDim S2048x50x512 ![0, 1, 2] bcast_S2048x50x1_S2048x50x512_0_1_2
        (broadcastInDim S2048x50x1 ![0, 1] bcast_S2048x50_S2048x50x1_0_1 w)))
    (constant S_ .f32 0x00000000#32) reducesTo_S2048x50x512_S2048x512_d1 h_S_

/-- The reference's result: `((pooled @ W1) @ W2) @ W3`. -/
def refOut (x : IVec S2048x50 32) (w : FVec F S2048x50 .f32) (hw : FVec F S2000000 .f32)
    (i1 : IVec S512x2048 32) (i2 : IVec S2048x2048 32) (i3 : IVec S2048x1000 32) : FVec F S2048x1000 .f32 :=
  Host.dotGeneral dot_S2048x2048_S2048x1000_S2048x1000_1_0_0_1_n_n none
    (Host.dotGeneral dot_S2048x2048_S2048x2048_S2048x2048_1_0_0_1_n_n none
      (Host.dotGeneral dot_S2048x512_S512x2048_S2048x2048_1_0_0_1_n_n none (pooled x w hw) (Shared.gathered₁ hw i1))
      (Shared.gathered₂ hw i2))
    (Shared.gathered₃ hw i3)

end Cert.ReferenceIdeal.RV

end
-- ==== Proof.RefOps.lean ====
/- The reference's @main as the list of its 119 host operations, in program order; where @main calls a local
   function, that function's operations stand at the call, over the call's own record of buffers. A table only. -/
import proofs.«139206_j5952824673078_1_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ StableHlo.nullary main_v0 (iotaInDim S16 32 0),
    StableHlo.unary main_arg0 main_v1 (broadcastInDim S2048x50x1 ![0, 1] bcast_S2048x50_S2048x50x1_0_1 : (⟨S2048x50, .i32⟩ : BufTy).Contents (Elt F) → (⟨S2048x50x1, .i32⟩ : BufTy).Contents (Elt F)),
    StableHlo.nullary main_c (constantI S_ 32 1000003#32),
    StableHlo.unary main_c main_v2 (broadcastInDim S2048x50x1 ![] bcast_S_S2048x50x1 : (⟨S_, .i32⟩ : BufTy).Contents (Elt F) → (⟨S2048x50x1, .i32⟩ : BufTy).Contents (Elt F)),
    StableHlo.binary main_v2 main_v1 main_v3 (muli : (⟨S2048x50x1, .i32⟩ : BufTy).Contents (Elt F) → (⟨S2048x50x1, .i32⟩ : BufTy).Contents (Elt F) → (⟨S2048x50x1, .i32⟩ : BufTy).Contents (Elt F)),
    StableHlo.nullary main_c_0 (constantI S_ 32 193939#32),
    StableHlo.unary main_c_0 main_v4 (broadcastInDim S16 ![] bcast_S_S16 : (⟨S_, .i32⟩ : BufTy).Contents (Elt F) → (⟨S16, .i32⟩ : BufTy).Contents (Elt F)),
    StableHlo.binary main_v4 main_v0 main_v5 (muli : (⟨S16, .i32⟩ : BufTy).Contents (Elt F) → (⟨S16, .i32⟩ : BufTy).Contents (Elt F) → (⟨S16, .i32⟩ : BufTy).Contents (Elt F)),
    StableHlo.unary main_v5 main_v6 (broadcastInDim S1x1x16 ![2] bcast_S16_S1x1x16_2 : (⟨S16, .i32⟩ : BufTy).Contents (Elt F) → (⟨S1x1x16, .i32⟩ : BufTy).Contents (Elt F)),
    StableHlo.unary main_v3 main_v7 (broadcastInDim S2048x50x16 ![0, 1, 2] bcast_S2048x50x1_S2048x50x16_0_1_2 : (⟨S2048x50x1, .i32⟩ : BufTy).Contents (Elt F) → (⟨S2048x50x16, .i32⟩ : BufTy).Contents (Elt F)),
    StableHlo.unary main_v6 main_v8 (broadcastInDim S2048x50x16 ![0, 1, 2] bcast_S1x1x16_S2048x50x16_0_1_2 : (⟨S1x1x16, .i32⟩ : BufTy).Contents (Elt F) → (⟨S2048x50x16, .i32⟩ : BufTy).Contents (Elt F)),
    StableHlo.binary main_v7 main_v8 main_v9 (addi : (⟨S2048x50x16, .i32⟩ : BufTy).Contents (Elt F) → (⟨S2048x50x16, .i32⟩ : BufTy).Contents (Elt F) → (⟨S2048x50x16, .i32⟩ : BufTy).Contents (Elt F)),
    StableHlo.nullary main_c_1 (constantI S_ 32 7919#32),
    StableHlo.unary main_c_1 main_v10 (broadcastInDim S2048x50x16 ![] bcast_S_S2048x50x16 : (⟨S_, .i32⟩ : BufTy).Contents (Elt F) → (⟨S2048x50x16, .i32⟩ : BufTy).Contents (Elt F)),
    StableHlo.binary main_v9 main_v10 main_v11 (addi : (⟨S2048x50x16, .i32⟩ : BufTy).Contents (Elt F) → (⟨S2048x50x16, .i32⟩ : BufTy).Contents (Elt F) → (⟨S2048x50x16, .i32⟩ : BufTy).Contents (Elt F)),
    StableHlo.nullary main_c_2 (constantI S_ 32 2147483647#32),
    StableHlo.TRef.unary ((.of main_c_2) : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S2048x50x16 ![] bcast_S_S2048x50x16),
    StableHlo.TRef.binary ((.of main_v11) : StableHlo.TRef sig ⟨S2048x50x16, .i32⟩) main_call0.v3 main_call0.v4 Host.remsi,
    StableHlo.TRef.nullary main_call0.c_1 (constantI S_ 32 0#32),
    StableHlo.TRef.unary main_call0.c_1 main_call0.v5 (broadcastInDim S2048x50x16 ![] bcast_S_S2048x50x16),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S2048x50x16 ![] bcast_S_S2048x50x16),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S2048x50x16 ![] bcast_S_S2048x50x16),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S2048x50x16 ![] bcast_S_S2048x50x16),
    StableHlo.TRef.binary main_call0.v4 main_call0.v13 main_call0.v14 addi,
    StableHlo.TRef.ternary main_call0.v12 main_call0.v14 main_call0.v4 main_call0.v15 select,
    StableHlo.nullary main_c_3 (constantI S_ 32 1999968#32),
    StableHlo.TRef.unary ((.of main_c_3) : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S2048x50x16 ![] bcast_S_S2048x50x16),
    StableHlo.TRef.binary ((.of main_v12) : StableHlo.TRef sig ⟨S2048x50x16, .i32⟩) main_call1.v3 main_call1.v4 Host.remsi,
    StableHlo.TRef.nullary main_call1.c_1 (constantI S_ 32 0#32),
    StableHlo.TRef.unary main_call1.c_1 main_call1.v5 (broadcastInDim S2048x50x16 ![] bcast_S_S2048x50x16),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S2048x50x16 ![] bcast_S_S2048x50x16),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S2048x50x16 ![] bcast_S_S2048x50x16),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S2048x50x16 ![] bcast_S_S2048x50x16),
    StableHlo.TRef.binary main_call1.v4 main_call1.v13 main_call1.v14 addi,
    StableHlo.TRef.ternary main_call1.v12 main_call1.v14 main_call1.v4 main_call1.v15 select,
    StableHlo.unary main_v13 main_v14 (broadcastInDim S2048x50x16x1 ![0, 1, 2] bcast_S2048x50x16_S2048x50x16x1_0_1_2 : (⟨S2048x50x16, .i32⟩ : BufTy).Contents (Elt F) → (⟨S2048x50x16x1, .i32⟩ : BufTy).Contents (Elt F)),
    StableHlo.nullary main_v15 (iotaInDim S32 32 0),
    StableHlo.unary main_v15 main_v16 (broadcastInDim S1x1x1x32 ![3] bcast_S32_S1x1x1x32_3 : (⟨S32, .i32⟩ : BufTy).Contents (Elt F) → (⟨S1x1x1x32, .i32⟩ : BufTy).Contents (Elt F)),
    StableHlo.unary main_v14 main_v17 (broadcastInDim S2048x50x16x32 ![0, 1, 2, 3] bcast_S2048x50x16x1_S2048x50x16x32_0_1_2_3 : (⟨S2048x50x16x1, .i32⟩ : BufTy).Contents (Elt F) → (⟨S2048x50x16x32, .i32⟩ : BufTy).Contents (Elt F)),
    StableHlo.unary main_v16 main_v18 (broadcastInDim S2048x50x16x32 ![0, 1, 2, 3] bcast_S1x1x1x32_S2048x50x16x32_0_1_2_3 : (⟨S1x1x1x32, .i32⟩ : BufTy).Contents (Elt F) → (⟨S2048x50x16x32, .i32⟩ : BufTy).Contents (Elt F)),
    StableHlo.binary main_v17 main_v18 main_v19 (addi : (⟨S2048x50x16x32, .i32⟩ : BufTy).Contents (Elt F) → (⟨S2048x50x16x32, .i32⟩ : BufTy).Contents (Elt F) → (⟨S2048x50x16x32, .i32⟩ : BufTy).Contents (Elt F)),
    StableHlo.nullary main_c_4 (constantI S_ 32 0#32),
    StableHlo.unary main_c_4 main_v20 (broadcastInDim S2048x50x16x32 ![] bcast_S_S2048x50x16x32 : (⟨S_, .i32⟩ : BufTy).Contents (Elt F) → (⟨S2048x50x16x32, .i32⟩ : BufTy).Contents (Elt F)),
    StableHlo.binary main_v19 main_v20 main_v21 (cmpi .slt : (⟨S2048x50x16x32, .i32⟩ : BufTy).Contents (Elt F) → (⟨S2048x50x16x32, .i32⟩ : BufTy).Contents (Elt F) → (⟨S2048x50x16x32, .i1⟩ : BufTy).Contents (Elt F)),
    StableHlo.nullary main_c_5 (constantI S_ 32 2000000#32),
    StableHlo.unary main_c_5 main_v22 (broadcastInDim S2048x50x16x32 ![] bcast_S_S2048x50x16x32 : (⟨S_, .i32⟩ : BufTy).Contents (Elt F) → (⟨S2048x50x16x32, .i32⟩ : BufTy).Contents (Elt F)),
    StableHlo.binary main_v19 main_v22 main_v23 (addi : (⟨S2048x50x16x32, .i32⟩ : BufTy).Contents (Elt F) → (⟨S2048x50x16x32, .i32⟩ : BufTy).Contents (Elt F) → (⟨S2048x50x16x32, .i32⟩ : BufTy).Contents (Elt F)),
    StableHlo.ternary main_v21 main_v23 main_v19 main_v24 (select : (⟨S2048x50x16x32, .i1⟩ : BufTy).Contents (Elt F) → (⟨S2048x50x16x32, .i32⟩ : BufTy).Contents (Elt F) → (⟨S2048x50x16x32, .i32⟩ : BufTy).Contents (Elt F) → (⟨S2048x50x16x32, .i32⟩ : BufTy).Contents (Elt F)),
    StableHlo.unary main_v24 main_v25 (broadcastInDim S2048x50x16x32x1 ![0, 1, 2, 3] bcast_S2048x50x16x32_S2048x50x16x32x1_0_1_2_3 : (⟨S2048x50x16x32, .i32⟩ : BufTy).Contents (Elt F) → (⟨S2048x50x16x32x1, .i32⟩ : BufTy).Contents (Elt F)),
    StableHlo.binary main_arg2 main_v25 main_v26 ((fun x i => Host.gather gather_S2000000_S2048x50x16x32x1_S2048x50x16x32_n_0_n_n_0_4_1 x i) : (⟨S2000000, .f32⟩ : BufTy).Contents (Elt F) → (⟨S2048x50x16x32x1, .i32⟩ : BufTy).Contents (Elt F) → (⟨S2048x50x16x32, .f32⟩ : BufTy).Contents (Elt F)),
    StableHlo.reshape main_v26 main_v27 rfl shapeCasts_S2048x50x16x32_S2048x50x512,
    StableHlo.nullary main_c_6 (constantI S_ 32 0#32),
    StableHlo.unary main_c_6 main_v28 (broadcastInDim S2048x50 ![] bcast_S_S2048x50 : (⟨S_, .i32⟩ : BufTy).Contents (Elt F) → (⟨S2048x50, .i32⟩ : BufTy).Contents (Elt F)),
    StableHlo.binary main_arg0 main_v28 main_v29 (cmpi .eq : (⟨S2048x50, .i32⟩ : BufTy).Contents (Elt F) → (⟨S2048x50, .i32⟩ : BufTy).Contents (Elt F) → (⟨S2048x50, .i1⟩ : BufTy).Contents (Elt F)),
    StableHlo.unary main_v29 main_v30 (broadcastInDim S2048x50x1 ![0, 1] bcast_S2048x50_S2048x50x1_0_1 : (⟨S2048x50, .i1⟩ : BufTy).Contents (Elt F) → (⟨S2048x50x1, .i1⟩ : BufTy).Contents (Elt F)),
    StableHlo.nullary main_cst (constant S_ .f32 0x00000000#32),
    StableHlo.TRef.unary ((.of main_cst) : StableHlo.TRef sig ⟨S_, .f32⟩) main_call2.v0 id,
    StableHlo.TRef.unary ((.of main_v30) : StableHlo.TRef sig ⟨S2048x50x1, .i1⟩) main_call2.v1 (broadcastInDim S2048x50x512 ![0, 1, 2] bcast_S2048x50x1_S2048x50x512_0_1_2),
    StableHlo.TRef.unary main_call2.v0 main_call2.v2 (broadcastInDim S2048x50x512 ![] bcast_S_S2048x50x512),
    StableHlo.TRef.ternary main_call2.v1 main_call2.v2 ((.of main_v27) : StableHlo.TRef sig ⟨S2048x50x512, .f32⟩) main_call2.v3 select,
    StableHlo.unary main_arg1 main_v32 (broadcastInDim S2048x50x1 ![0, 1] bcast_S2048x50_S2048x50x1_0_1 : (⟨S2048x50, .f32⟩ : BufTy).Contents (Elt F) → (⟨S2048x50x1, .f32⟩ : BufTy).Contents (Elt F)),
    StableHlo.unary main_v32 main_v33 (broadcastInDim S2048x50x512 ![0, 1, 2] bcast_S2048x50x1_S2048x50x512_0_1_2 : (⟨S2048x50x1, .f32⟩ : BufTy).Contents (Elt F) → (⟨S2048x50x512, .f32⟩ : BufTy).Contents (Elt F)),
    StableHlo.binary main_v31 main_v33 main_v34 (mulf : (⟨S2048x50x512, .f32⟩ : BufTy).Contents (Elt F) → (⟨S2048x50x512, .f32⟩ : BufTy).Contents (Elt F) → (⟨S2048x50x512, .f32⟩ : BufTy).Contents (Elt F)),
    StableHlo.nullary main_cst_7 (constant S_ .f32 0x00000000#32),
    StableHlo.binary main_v34 main_cst_7 main_v35 ((fun x v => Host.reduceAdd x v reducesTo_S2048x50x512_S2048x512_d1 h_S_) : (⟨S2048x50x512, .f32⟩ : BufTy).Contents (Elt F) → (⟨S_, .f32⟩ : BufTy).Contents (Elt F) → (⟨S2048x512, .f32⟩ : BufTy).Contents (Elt F)),
    StableHlo.nullary main_c_8 (constantI S_ 32 0#32),
    StableHlo.unary main_c_8 main_v36 (broadcastInDim S512x2048 ![] bcast_S_S512x2048 : (⟨S_, .i32⟩ : BufTy).Contents (Elt F) → (⟨S512x2048, .i32⟩ : BufTy).Contents (Elt F)),
    StableHlo.binary main_arg3 main_v36 main_v37 (cmpi .slt : (⟨S512x2048, .i32⟩ : BufTy).Contents (Elt F) → (⟨S512x2048, .i32⟩ : BufTy).Contents (Elt F) → (⟨S512x2048, .i1⟩ : BufTy).Contents (Elt F)),
    StableHlo.nullary main_c_9 (constantI S_ 32 2000000#32),
    StableHlo.unary main_c_9 main_v38 (broadcastInDim S512x2048 ![] bcast_S_S512x2048 : (⟨S_, .i32⟩ : BufTy).Contents (Elt F) → (⟨S512x2048, .i32⟩ : BufTy).Contents (Elt F)),
    StableHlo.binary main_arg3 main_v38 main_v39 (addi : (⟨S512x2048, .i32⟩ : BufTy).Contents (Elt F) → (⟨S512x2048, .i32⟩ : BufTy).Contents (Elt F) → (⟨S512x2048, .i32⟩ : BufTy).Contents (Elt F)),
    StableHlo.ternary main_v37 main_v39 main_arg3 main_v40 (select : (⟨S512x2048, .i1⟩ : BufTy).Contents (Elt F) → (⟨S512x2048, .i32⟩ : BufTy).Contents (Elt F) → (⟨S512x2048, .i32⟩ : BufTy).Contents (Elt F) → (⟨S512x2048, .i32⟩ : BufTy).Contents (Elt F)),
    StableHlo.unary main_v40 main_v41 (broadcastInDim S512x2048x1 ![0, 1] bcast_S512x2048_S512x2048x1_0_1 : (⟨S512x2048, .i32⟩ : BufTy).Contents (Elt F) → (⟨S512x2048x1, .i32⟩ : BufTy).Contents (Elt F)),
    StableHlo.binary main_arg2 main_v41 main_v42 ((fun x i => Host.gather gather_S2000000_S512x2048x1_S512x2048_n_0_n_n_0_2_1 x i) : (⟨S2000000, .f32⟩ : BufTy).Contents (Elt F) → (⟨S512x2048x1, .i32⟩ : BufTy).Contents (Elt F) → (⟨S512x2048, .f32⟩ : BufTy).Contents (Elt F)),
    StableHlo.binary main_v35 main_v42 main_v43 ((fun l r => Host.dotGeneral dot_S2048x512_S512x2048_S2048x2048_1_0_0_1_n_n none l r) : (⟨S2048x512, .f32⟩ : BufTy).Contents (Elt F) → (⟨S512x2048, .f32⟩ : BufTy).Contents (Elt F) → (⟨S2048x2048, .f32⟩ : BufTy).Contents (Elt F)),
    StableHlo.nullary main_c_10 (constantI S_ 32 0#32),
    StableHlo.unary main_c_10 main_v44 (broadcastInDim S2048x2048 ![] bcast_S_S2048x2048 : (⟨S_, .i32⟩ : BufTy).Contents (Elt F) → (⟨S2048x2048, .i32⟩ : BufTy).Contents (Elt F)),
    StableHlo.binary main_arg4 main_v44 main_v45 (cmpi .slt : (⟨S2048x2048, .i32⟩ : BufTy).Contents (Elt F) → (⟨S2048x2048, .i32⟩ : BufTy).Contents (Elt F) → (⟨S2048x2048, .i1⟩ : BufTy).Contents (Elt F)),
    StableHlo.nullary main_c_11 (constantI S_ 32 2000000#32),
    StableHlo.unary main_c_11 main_v46 (broadcastInDim S2048x2048 ![] bcast_S_S2048x2048 : (⟨S_, .i32⟩ : BufTy).Contents (Elt F) → (⟨S2048x2048, .i32⟩ : BufTy).Contents (Elt F)),
    StableHlo.binary main_arg4 main_v46 main_v47 (addi : (⟨S2048x2048, .i32⟩ : BufTy).Contents (Elt F) → (⟨S2048x2048, .i32⟩ : BufTy).Contents (Elt F) → (⟨S2048x2048, .i32⟩ : BufTy).Contents (Elt F)),
    StableHlo.ternary main_v45 main_v47 main_arg4 main_v48 (select : (⟨S2048x2048, .i1⟩ : BufTy).Contents (Elt F) → (⟨S2048x2048, .i32⟩ : BufTy).Contents (Elt F) → (⟨S2048x2048, .i32⟩ : BufTy).Contents (Elt F) → (⟨S2048x2048, .i32⟩ : BufTy).Contents (Elt F)),
    StableHlo.unary main_v48 main_v49 (broadcastInDim S2048x2048x1 ![0, 1] bcast_S2048x2048_S2048x2048x1_0_1 : (⟨S2048x2048, .i32⟩ : BufTy).Contents (Elt F) → (⟨S2048x2048x1, .i32⟩ : BufTy).Contents (Elt F)),
    StableHlo.binary main_arg2 main_v49 main_v50 ((fun x i => Host.gather gather_S2000000_S2048x2048x1_S2048x2048_n_0_n_n_0_2_1 x i) : (⟨S2000000, .f32⟩ : BufTy).Contents (Elt F) → (⟨S2048x2048x1, .i32⟩ : BufTy).Contents (Elt F) → (⟨S2048x2048, .f32⟩ : BufTy).Contents (Elt F)),
    StableHlo.binary main_v43 main_v50 main_v51 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.nullary main_c_12 (constantI S_ 32 0#32),
    StableHlo.unary main_c_12 main_v52 (broadcastInDim S2048x1000 ![] bcast_S_S2048x1000 : (⟨S_, .i32⟩ : BufTy).Contents (Elt F) → (⟨S2048x1000, .i32⟩ : BufTy).Contents (Elt F)),
    StableHlo.binary main_arg5 main_v52 main_v53 (cmpi .slt : (⟨S2048x1000, .i32⟩ : BufTy).Contents (Elt F) → (⟨S2048x1000, .i32⟩ : BufTy).Contents (Elt F) → (⟨S2048x1000, .i1⟩ : BufTy).Contents (Elt F)),
    StableHlo.nullary main_c_13 (constantI S_ 32 2000000#32),
    StableHlo.unary main_c_13 main_v54 (broadcastInDim S2048x1000 ![] bcast_S_S2048x1000 : (⟨S_, .i32⟩ : BufTy).Contents (Elt F) → (⟨S2048x1000, .i32⟩ : BufTy).Contents (Elt F)),
    StableHlo.binary main_arg5 main_v54 main_v55 (addi : (⟨S2048x1000, .i32⟩ : BufTy).Contents (Elt F) → (⟨S2048x1000, .i32⟩ : BufTy).Contents (Elt F) → (⟨S2048x1000, .i32⟩ : BufTy).Contents (Elt F)),
    StableHlo.ternary main_v53 main_v55 main_arg5 main_v56 (select : (⟨S2048x1000, .i1⟩ : BufTy).Contents (Elt F) → (⟨S2048x1000, .i32⟩ : BufTy).Contents (Elt F) → (⟨S2048x1000, .i32⟩ : BufTy).Contents (Elt F) → (⟨S2048x1000, .i32⟩ : BufTy).Contents (Elt F)),
    StableHlo.unary main_v56 main_v57 (broadcastInDim S2048x1000x1 ![0, 1] bcast_S2048x1000_S2048x1000x1_0_1 : (⟨S2048x1000, .i32⟩ : BufTy).Contents (Elt F) → (⟨S2048x1000x1, .i32⟩ : BufTy).Contents (Elt F)),
    StableHlo.binary main_arg2 main_v57 main_v58 ((fun x i => Host.gather gather_S2000000_S2048x1000x1_S2048x1000_n_0_n_n_0_2_1 x i) : (⟨S2000000, .f32⟩ : BufTy).Contents (Elt F) → (⟨S2048x1000x1, .i32⟩ : BufTy).Contents (Elt F) → (⟨S2048x1000, .f32⟩ : BufTy).Contents (Elt F)),
    StableHlo.binary main_v51 main_v58 main_v59 ((fun l r => Host.dotGeneral dot_S2048x2048_S2048x1000_S2048x1000_1_0_0_1_n_n none l r) : (⟨S2048x2048, .f32⟩ : BufTy).Contents (Elt F) → (⟨S2048x1000, .f32⟩ : BufTy).Contents (Elt F) → (⟨S2048x1000, .f32⟩ : BufTy).Contents (Elt F)) ]

end Cert.ReferenceIdeal.RV

end
-- ==== Proof.RefRun.lean ====
/- The reference's @main, a straight line of host operations once its local functions are unfolded at their calls,
   run from any memory: every weakly fair execution terminates with the result array at `RV.refOut` of the argument
   arrays, and the argument arrays unchanged. -/
import proofs.«139206_j5952824673078_1_alg».proof.Proof.RefOut
import proofs.«139206_j5952824673078_1_alg».proof.Proof.RefOps
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
/-- @main is the straight line `ops`: its two windows and the three local functions unfolded at their calls, both
    sides are one chain of host steps once sequencing is re-associated (associativity of bind, a pure step dropped). -/
theorem main_eq (c : Dev nD) : main (F := F) c = seq ops := by
  simp only [main, main_part0, main_part1, fn_remainder.body, fn_where.body, fn_where_0.body, seq, bind_assoc, pure_bind]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation of the line names TensorCore buffers only: operation by operation, each by the fact of its arity. -/
theorem ops_sub : (ops : List (HloOp τ sig (Elt F))).Forall fun op => op.bufs ⊆ tcRefs τ sig := by
  simp only [List.forall_cons, List.Forall, nullary_bufs_sub, unary_bufs_sub, binary_bufs_sub, ternary_bufs_sub,
    reshape_bufs_sub, and_self]

attribute [local irreducible] Host.gather Host.remsi Host.reduceAdd in
set_option maxRecDepth 8192 in
set_option maxHeartbeats 8000000 in
/-- The contents of the result buffer after the line, from any contents `V`: each operation's result at the buffer it
    writes is its function of its operands' contents, and every other buffer keeps what it held; followed back from the
    last matrix product to the argument buffers this is `refOut` of their contents. The two sides are then the same
    composition of the same operations (the typed references' transports are identities at literal references), so
    they agree by computation; the gather, the integer remainder and the sum over an axis are never opened for it. -/
theorem out_eq (V : Valuation τ sig (Elt F)) :
    after ops V (main_v59 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! No operation of the line writes an argument buffer: each keeps its contents through all of them. -/

set_option maxRecDepth 8192 in
set_option maxHeartbeats 8000000 in
theorem arg0_eq (V : Valuation τ sig (Elt F)) :
    after ops V (main_arg0 : DevRef τ sig) = V (main_arg0 : DevRef τ sig) := by
  after_results_simp

set_option maxRecDepth 8192 in
set_option maxHeartbeats 8000000 in
theorem arg1_eq (V : Valuation τ sig (Elt F)) :
    after ops V (main_arg1 : DevRef τ sig) = V (main_arg1 : DevRef τ sig) := by
  after_results_simp

set_option maxRecDepth 8192 in
set_option maxHeartbeats 8000000 in
theorem arg2_eq (V : Valuation τ sig (Elt F)) :
    after ops V (main_arg2 : DevRef τ sig) = V (main_arg2 : DevRef τ sig) := by
  after_results_simp

set_option maxRecDepth 8192 in
set_option maxHeartbeats 8000000 in
theorem arg3_eq (V : Valuation τ sig (Elt F)) :
    after ops V (main_arg3 : DevRef τ sig) = V (main_arg3 : DevRef τ sig) := by
  after_results_simp

set_option maxRecDepth 8192 in
set_option maxHeartbeats 8000000 in
theorem arg4_eq (V : Valuation τ sig (Elt F)) :
    after ops V (main_arg4 : DevRef τ sig) = V (main_arg4 : DevRef τ sig) := by
  after_results_simp

set_option maxRecDepth 8192 in
set_option maxHeartbeats 8000000 in
theorem arg5_eq (V : Valuation τ sig (Elt F)) :
    after ops V (main_arg5 : DevRef τ sig) = V (main_arg5 : DevRef τ sig) := by
  after_results_simp

/- The run of a straight line of host operations ends with every buffer at the fold of the operations' results over the
   launch contents; read at the result buffer and at the six argument buffers that fold is the seven equations above. -/
set_option maxHeartbeats 8000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v59).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops) main_eq (fun _ => ops_sub) m ρ)

end Cert.ReferenceIdeal.RV

end
-- ==== Proof.RefValue.lean ====
/- The reference's result term, read at the extended reals, is the specification `Spec.out` of the shared chains'
   arrays: the host's sum over the history axis from a zero initial value is the pool, and each host matrix product
   is the sum over the contracted axis. -/
import proofs.«139206_j5952824673078_1_alg».proof.Proof.RefOut
import proofs.«139206_j5952824673078_1_alg».proof.Proof.Spec
import Idealize.ShloMosaic.PureOps.Ideal.Laws
import Idealize.ShloMosaic.Lib.Pipeline.Value
import Idealize.ShloMosaic.Lib.StackMember

noncomputable section

namespace Cert.ReferenceIdeal.RV

open Cert.ReferenceIdeal Cert.ReferenceIdeal.Gen Idealize.ShloMosaic Idealize.ShloMosaic.ValueIdx

/-! ## The three matrix products, entry by entry

Each of the reference's three products contracts the left operand's columns against the right operand's rows and has
no batch axis: its dimension numbers are those of the plain rows-by-columns product, so its entry at (p, q) is
`∑ k, l (p, k) · r (k, q)`. -/

/-- The product of the pooled rows [2048, 512] with the first weight matrix [512, 2048]. -/
private theorem dot₁_apply (l : FVec Ideal S2048x512 .f32) (r : FVec Ideal S512x2048 .f32) (p : Fin 2048) (q : Fin 2048) :
    Host.dotGeneral (F := Ideal) dot_S2048x512_S512x2048_S2048x2048_1_0_0_1_n_n none l r (ix2 p q)
      = ∑ k : Fin 512, l (ix2 p k) * r (ix2 k q) :=
  StackMember.dotGeneral_plain_apply none l r p q

/-- The product with the second weight matrix [2048, 2048]. -/
private theorem dot₂_apply (l : FVec Ideal S2048x2048 .f32) (r : FVec Ideal S2048x2048 .f32) (p : Fin 2048) (q : Fin 2048) :
    Host.dotGeneral (F := Ideal) dot_S2048x2048_S2048x2048_S2048x2048_1_0_0_1_n_n none l r (ix2 p q)
      = ∑ k : Fin 2048, l (ix2 p k) * r (ix2 k q) :=
  StackMember.dotGeneral_plain_apply none l r p q

/-- The product with the third weight matrix [2048, 1000]. -/
private theorem dot₃_apply (l : FVec Ideal S2048x2048 .f32) (r : FVec Ideal S2048x1000 .f32) (p : Fin 2048) (q : Fin 1000) :
    Host.dotGeneral (F := Ideal) dot_S2048x2048_S2048x1000_S2048x1000_1_0_0_1_n_n none l r (ix2 p q)
      = ∑ k : Fin 2048, l (ix2 p k) * r (ix2 k q) :=
  StackMember.dotGeneral_plain_apply none l r p q

/-! ## The pooled rows, entry by entry -/

/-- The weights [2048, 50], given a unit last axis and then copied along it to [2048, 50, 512], read at (b, l, d),
    are the weight at (b, l): the first broadcast reads the unit axis at 0, the second keeps the first two
    coordinates. -/
private theorem bcast_w_apply (w : FVec Ideal S2048x50 .f32) (b : Fin 2048) (l : Fin 50) (d : Fin 512) :
    broadcastInDim S2048x50x512 ![0, 1, 2] bcast_S2048x50x1_S2048x50x512_0_1_2
        (broadcastInDim S2048x50x1 ![0, 1] bcast_S2048x50_S2048x50x1_0_1 w) (ix3 b l d) = w (ix2 b l) := by
  refine (broadcastInDim_apply _ _ _ (ix3 b l d) (ix3 b l (0 : Fin 1)) fun a => ?_).trans ?_
  · match a with
    | ⟨0, _⟩ => rfl
    | ⟨1, _⟩ => rfl
    | ⟨2, _⟩ => rfl
  · refine broadcastInDim_apply _ _ _ (ix3 b l (0 : Fin 1)) (ix2 b l) fun a => ?_
    match a with
    | ⟨0, _⟩ => rfl
    | ⟨1, _⟩ => rfl

/-- Putting the coordinate `l` back on the summed middle axis of the result index (b, d) gives (b, l, d). -/
private theorem lift_eq (hR : S2048x50x512.Reduces [1] S2048x512) (b : Fin 2048) (l : Fin 50) (d : Fin 512) :
    hR.lift (ix2 b d) l = ix3 b l d := by
  funext a; apply Fin.ext
  match a with
  | ⟨0, _⟩ => rfl
  | ⟨1, _⟩ => rfl
  | ⟨2, _⟩ => rfl

/-- The sum over the history axis, from the initial value zero, of an array `E` times the broadcast weights, at
    (b, d): the initial value `0` drops out by `0 + s = s`, the sum runs over the middle coordinate, and under it
    the product is entrywise. -/
private theorem pooled_apply (E : FVec Ideal S2048x50x512 .f32) (w : FVec Ideal S2048x50 .f32) (b : Fin 2048) (d : Fin 512) :
    Host.reduceAdd (F := Ideal)
      (mulf E (broadcastInDim S2048x50x512 ![0, 1, 2] bcast_S2048x50x1_S2048x50x512_0_1_2
        (broadcastInDim S2048x50x1 ![0, 1] bcast_S2048x50_S2048x50x1_0_1 w)))
      (constant (F := Ideal) S_ .f32 0x00000000#32) reducesTo_S2048x50x512_S2048x512_d1 h_S_ (ix2 b d)
    = ∑ l : Fin 50, E (ix3 b l d) * w (ix2 b l) := by
  have hR : S2048x50x512.Reduces [1] S2048x512 := by decide
  refine (Ideal.hostReduceAdd_single reducesTo_S2048x50x512_S2048x512_d1 hR _ _ (ix2 b d)).trans ?_
  refine (congrArg (· + _) Ideal.ofBits_zero_f32).trans ((zero_add _).trans ?_)
  refine Finset.sum_congr rfl fun (l : Fin 50) _ => ?_
  refine (congrArg _ (lift_eq hR b l d)).trans ?_
  exact (mulf_apply _ _ _).trans (congrArg (E (ix3 b l d) * ·) (bcast_w_apply w b l d))

/-! ## The whole chain -/

/-- Over any five arrays, the sum over the history axis followed by the three products is `Spec.out`: at an entry
    (p, q) both sides are the same three nested sums of products over a pooled entry, matched one sum at a time from
    the outermost product inwards. -/
private theorem chain_eq (E : FVec Ideal S2048x50x512 .f32) (w : FVec Ideal S2048x50 .f32)
    (A1 : FVec Ideal S512x2048 .f32) (A2 : FVec Ideal S2048x2048 .f32) (A3 : FVec Ideal S2048x1000 .f32) :
    (Host.dotGeneral (F := Ideal) dot_S2048x2048_S2048x1000_S2048x1000_1_0_0_1_n_n none
      (Host.dotGeneral (F := Ideal) dot_S2048x2048_S2048x2048_S2048x2048_1_0_0_1_n_n none
        (Host.dotGeneral (F := Ideal) dot_S2048x512_S512x2048_S2048x2048_1_0_0_1_n_n none
          (Host.reduceAdd (F := Ideal)
            (mulf E (broadcastInDim S2048x50x512 ![0, 1, 2] bcast_S2048x50x1_S2048x50x512_0_1_2
              (broadcastInDim S2048x50x1 ![0, 1] bcast_S2048x50_S2048x50x1_0_1 w)))
            (constant (F := Ideal) S_ .f32 0x00000000#32) reducesTo_S2048x50x512_S2048x512_d1 h_S_)
          A1) A2) A3 : Cert.Spec.Mat 2048 1000)
      = Cert.Spec.out E w A1 A2 A3 := by
  funext j
  obtain ⟨p, q, rfl⟩ : ∃ (p : Fin 2048) (q : Fin 1000), j = ix2 p q := ⟨j 0, j 1, eq_ix2 j⟩
  unfold Cert.Spec.out
  refine (dot₃_apply _ _ p q).trans (Eq.trans ?_ (Cert.Spec.mm_apply _ _ p q).symm)
  refine Finset.sum_congr rfl fun k₃ _ => congrArg (· * A3 (ix2 k₃ q)) ?_
  refine (dot₂_apply _ _ p k₃).trans (Eq.trans ?_ (Cert.Spec.mm_apply _ _ p k₃).symm)
  refine Finset.sum_congr rfl fun k₂ _ => congrArg (· * A2 (ix2 k₂ k₃)) ?_
  refine (dot₁_apply _ _ p k₂).trans (Eq.trans ?_ (Cert.Spec.mm_apply _ _ p k₂).symm)
  refine Finset.sum_congr rfl fun k₁ _ => congrArg (· * A1 (ix2 k₁ k₂)) ?_
  exact (pooled_apply E w p k₁).trans (Cert.Spec.pool_apply E w p k₁).symm

theorem refOut_eq (x : IVec S2048x50 32) (w : FVec Ideal S2048x50 .f32) (hw : FVec Ideal S2000000 .f32)
    (i1 : IVec S512x2048 32) (i2 : IVec S2048x2048 32) (i3 : IVec S2048x1000 32) :
    (refOut (F := Ideal) x w hw i1 i2 i3 : Cert.Spec.Mat 2048 1000)
      = Cert.Spec.out (Shared.embedding (F := Ideal) x hw) w (Shared.gathered₁ (F := Ideal) hw i1)
          (Shared.gathered₂ (F := Ideal) hw i2) (Shared.gathered₃ (F := Ideal) hw i3) := by
  -- the embedding and the three gathered matrices enter only as whole arrays: the chain's equation at those arrays
  unfold refOut pooled
  exact chain_eq _ w _ _ _

end Cert.ReferenceIdeal.RV

end
-- ==== Proof.Bridge.lean ====
/-
  The host chains both programs share are the same functions of their arguments: the two printed programs state the
  same operations over the same shapes and literals, each under its own names, so each equation holds by unfolding the
  names (no array is ever evaluated).
-/
import proofs.«139206_j5952824673078_1_alg».proof.Proof.KerTerms
import proofs.«139206_j5952824673078_1_alg».proof.Proof.RefTerms

noncomputable section

namespace Cert.Bridge

open Idealize.ShloMosaic

variable {F : FTy → Type} [FloatOps F]

theorem embedding_eq (x : IVec Cert.KernelIdeal.S2048x50 32) (hw : FVec F Cert.KernelIdeal.S2000000 .f32) :
    Cert.ReferenceIdeal.Shared.embedding x hw = Cert.KernelIdeal.Shared.embedding x hw := rfl

theorem gathered₁_eq (hw : FVec F Cert.KernelIdeal.S2000000 .f32) (i : IVec Cert.KernelIdeal.S512x2048 32) :
    Cert.ReferenceIdeal.Shared.gathered₁ hw i = Cert.KernelIdeal.Shared.gathered₁ hw i := rfl

theorem gathered₂_eq (hw : FVec F Cert.KernelIdeal.S2000000 .f32) (i : IVec Cert.KernelIdeal.S2048x2048 32) :
    Cert.ReferenceIdeal.Shared.gathered₂ hw i = Cert.KernelIdeal.Shared.gathered₂ hw i := rfl

theorem gathered₃_eq (hw : FVec F Cert.KernelIdeal.S2000000 .f32) (i : IVec Cert.KernelIdeal.S2048x1000 32) :
    Cert.ReferenceIdeal.Shared.gathered₃ hw i = Cert.KernelIdeal.Shared.gathered₃ hw i := rfl

end Cert.Bridge

end
-- ==== Proof.lean ====
/-
  The certificate of a hashed-weight network: a weighted pool of hashed embedding rows followed by three matrix
  products, as a two-region accelerator program against its plain host reference, over the extended reals.

  Both programs build the same arrays from the arguments on the host — the hashed embedding `e` and the three
  gathered weight matrices `W1, W2, W3` (Proof/KerTerms.lean, Proof/RefTerms.lean; Proof/Bridge.lean: the same
  functions) — and both then compute `((pool e w) · W1 · W2) · W3` (Proof/Spec.lean):
  * the reference as a host sum over the history axis and three host matrix products (its run: Proof/RefRun.lean;
    its term read index by index: Proof/RefValue.lean);
  * the kernel as a pooling region over 16 blocks of 128 batch rows and a region of three matrix products over 8
    blocks of 256 rows, the third weight matrix widened by 24 zero columns that are cut off again at the end
    (each region's output array as one function: Proof/KerPool.lean, Proof/KerMlp.lean; the arrays each region finds:
    Proof/KerHost.lean; the composition: Proof/KerValue.lean; the run naming the result: Proof/KerLaunch.lean).
  Every sum is over the same finite index set with the same summands on both sides, and a change of float format is the
  identity on extended reals, so the two results are equal entry by entry with no appeal to finiteness of the inputs.
  The idealization rewrote nothing, so `preserves` is trivial; the kernel's two frames are the generated ones and the
  reference's frame is its run with the result dropped.
-/
import proofs.«139206_j5952824673078_1_alg».proof.Defs
import proofs.«139206_j5952824673078_1_alg».proof.Proof.Gen.Kernel
import proofs.«139206_j5952824673078_1_alg».proof.Proof.Gen.Kernel.Frame
import proofs.«139206_j5952824673078_1_alg».proof.Proof.Gen.KernelIdeal
import proofs.«139206_j5952824673078_1_alg».proof.Proof.Gen.KernelIdeal.Frame
import proofs.«139206_j5952824673078_1_alg».proof.Proof.Gen.ReferenceIdeal
import proofs.«139206_j5952824673078_1_alg».proof.Proof.Gen.Pre_finite_inputs
import proofs.«139206_j5952824673078_1_alg».proof.Proof.KerLaunch
import proofs.«139206_j5952824673078_1_alg».proof.Proof.KerValue
import proofs.«139206_j5952824673078_1_alg».proof.Proof.RefRun
import proofs.«139206_j5952824673078_1_alg».proof.Proof.RefValue
import proofs.«139206_j5952824673078_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RV.run (F := Ideal) m ρ)

/-- Both idealized programs end with the result array at `Spec.out` of the hashed embedding, the weights and the
    three gathered matrices of arguments that agree. -/
theorem algebraic : Cert.algebraic_KernelIdeal_ReferenceIdeal := by
  intro m ρ m' ρ' _ hagree
  refine ⟨fun c => Cert.Spec.out
      (Cert.KernelIdeal.Shared.embedding (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (Cert.KernelIdeal.Shared.gathered₁ (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (Cert.KernelIdeal.Shared.gathered₂ (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg4)))
      (Cert.KernelIdeal.Shared.gathered₃ (F := Ideal) (m ((c.tc : Thread Cert.KernelIdeal.nD Cert.KernelIdeal.τ).loc Cert.KernelIdeal.main_arg2))
        (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.KV.result_eq m ρ c), (h c).2⟩)
      (Cert.KernelIdeal.Gen.run_out m ρ)
  · refine (θ_run Cert.ReferenceIdeal.defs _ _).mono (fun r h c => ⟨(h c).1.trans ?_, (h c).2⟩)
      (Cert.ReferenceIdeal.RV.run (F := Ideal) m' ρ')
    obtain ⟨h0, h1, h2, h3, h4, h5⟩ := hagree c
    rw [h0, h1, h2, h3, h4, h5]
    refine (Cert.ReferenceIdeal.RV.refOut_eq _ _ _ _ _ _).trans ?_
    rw [Cert.Bridge.embedding_eq, Cert.Bridge.gathered₁_eq, Cert.Bridge.gathered₂_eq, Cert.Bridge.gathered₃_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
